-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024 : Shape := ⟨1, ![1024]⟩
abbrev S1024x3072 : Shape := ⟨2, ![1024, 3072]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2048x1024 .f32) (main_arg1 : FVec F S1024 .f32) (main_arg2 : FVec F S1024 .f32) (main_arg3 : FVec F S1024x3072 .f32) (main_arg4 : FVec F S1024x1024 .f32) (main_arg5 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_v13 main_v16
-- ==== Kernel.lean ====
abbrev S2048x1024 : Shape := ⟨2, ![2048, 1024]⟩
abbrev S1024 : Shape := ⟨1, ![1024]⟩
abbrev S1024x3072 : Shape := ⟨2, ![1024, 3072]⟩
abbrev S1024x1024 : Shape := ⟨2, ![1024, 1024]⟩
abbrev S2048x3072 : Shape := ⟨2, ![2048, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024 : Shape := ⟨2, ![1, 1024]⟩
abbrev S256x3072 : Shape := ⟨2, ![256, 3072]⟩
abbrev S256x1024 : Shape := ⟨2, ![256, 1024]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x3072, .f32⟩
  | .hbm, ⟨4, _⟩ => ⟨S1024x1024, .f32⟩
  | .hbm, ⟨5, _⟩ => ⟨S1024, .f32⟩
  | .hbm, ⟨6, _⟩ => ⟨S1024x3072, .bf16⟩
  | .hbm, ⟨7, _⟩ => ⟨S1024x1024, .bf16⟩
  | .hbm, ⟨8, _⟩ => ⟨S2048x3072, .bf16⟩
  | .hbm, ⟨9, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024, .f32⟩
  | .local _ .vmem, ⟨3, _⟩ => ⟨S1024, .f32⟩
  | .local _ .vmem, ⟨4, _⟩ => ⟨S1024x3072, .bf16⟩
  | .local _ .vmem, ⟨5, _⟩ => ⟨S512x3072, .bf16⟩
  | .local _ .vmem, ⟨6, _⟩ => ⟨S512x3072, .bf16⟩
  | .local _ .vmem, ⟨7, _⟩ => ⟨S256x3072, .bf16⟩
  | .local _ .vmem, ⟨8, _⟩ => ⟨S256x3072, .bf16⟩
  | .local _ .vmem, ⟨9, _⟩ => ⟨S2048x3072, .bf16⟩
  | .local _ .vmem, ⟨10, _⟩ => ⟨S1024x1024, .bf16⟩
  | .local _ .vmem, ⟨11, _⟩ => ⟨S1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k1_mult1 (k1_t1 : Fin k1_t1_loop.trips) : BitVec 32 :=
  let c0_i32_8 : BitVec 32 := 0#32
  let c0_i32 : BitVec 32 := 0#32
  let c1_i32 : BitVec 32 := 1#32
  let arg7 : BitVec 32 := Scf.iv c0_i32 c1_i32 k1_t1
  let c1_i32_7 : BitVec 32 := 1#32
  let v10 : BitVec 32 := Scalar.muli arg7 c1_i32_7
  let v11 : BitVec 32 := Scalar.addi c0_i32_8 v10
  let c128_i32 : BitVec 32 := 128#32
  let v12 : BitVec 32 := Scalar.muli v11 c128_i32
  v12
def k1_mult2 (k1_t1 : Fin k1_t1_loop.trips) : BitVec 32 :=
  let c1024_i32 : BitVec 32 := 1024#32
  let c0_i32_8 : BitVec 32 := 0#32
  let c0_i32 : BitVec 32 := 0#32
  let c1_i32 : BitVec 32 := 1#32
  let arg7 : BitVec 32 := Scf.iv c0_i32 c1_i32 k1_t1
  let c1_i32_7 : BitVec 32 := 1#32
  let v10 : BitVec 32 := Scalar.muli arg7 c1_i32_7
  let v11 : BitVec 32 := Scalar.addi c0_i32_8 v10
  let c128_i32_9 : BitVec 32 := 128#32
  let v14 : BitVec 32 := Scalar.muli v11 c128_i32_9
  let v15 : BitVec 32 := Scalar.addi c1024_i32 v14
  v15
def k1_mult3 (k1_t1 : Fin k1_t1_loop.trips) : BitVec 32 :=
  let c2048_i32 : BitVec 32 := 2048#32
  let c0_i32_8 : BitVec 32 := 0#32
  let c0_i32 : BitVec 32 := 0#32
  let c1_i32 : BitVec 32 := 1#32
  let arg7 : BitVec 32 := Scf.iv c0_i32 c1_i32 k1_t1
  let c1_i32_7 : BitVec 32 := 1#32
  let v10 : BitVec 32 := Scalar.muli arg7 c1_i32_7
  let v11 : BitVec 32 := Scalar.addi c0_i32_8 v10
  let c128_i32_10 : BitVec 32 := 128#32
  let v17 : BitVec 32 := Scalar.muli v11 c128_i32_10
  let v18 : BitVec 32 := Scalar.addi c2048_i32 v17
  v18
def k1_off1 (k1_t1 : Fin k1_t1_loop.trips) : Fin 2 → Nat :=
  let c0_11 : Index := 0#32
  let c0_i32_8 : BitVec 32 := 0#32
  let c0_i32 : BitVec 32 := 0#32
  let c1_i32 : BitVec 32 := 1#32
  let arg7 : BitVec 32 := Scf.iv c0_i32 c1_i32 k1_t1
  let c1_i32_7 : BitVec 32 := 1#32
  let v10 : BitVec 32 := Scalar.muli arg7 c1_i32_7
  let v11 : BitVec 32 := Scalar.addi c0_i32_8 v10
  let c128_i32 : BitVec 32 := 128#32
  let v12 : BitVec 32 := Scalar.muli v11 c128_i32
  let v13 : BitVec 32 := v12
  let v20 : Index := Scalar.indexCast v13
  ![0, v20.toNat]
def k1_off2 (k1_t1 : Fin k1_t1_loop.trips) (c1024_i32 : BitVec 32) : Fin 2 → Nat :=
  let c0_12 : Index := 0#32
  let c0_i32_8 : BitVec 32 := 0#32
  let c0_i32 : BitVec 32 := 0#32
  let c1_i32 : BitVec 32 := 1#32
  let arg7 : BitVec 32 := Scf.iv c0_i32 c1_i32 k1_t1
  let c1_i32_7 : BitVec 32 := 1#32
  let v10 : BitVec 32 := Scalar.muli arg7 c1_i32_7
  let v11 : BitVec 32 := Scalar.addi c0_i32_8 v10
  let c128_i32_9 : BitVec 32 := 128#32
  let v14 : BitVec 32 := Scalar.muli v11 c128_i32_9
  let v15 : BitVec 32 := Scalar.addi c1024_i32 v14
  let v16 : BitVec 32 := v15
  let v23 : Index := Scalar.indexCast v16
  ![0, v23.toNat]
def k1_off3 (k1_t1 : Fin k1_t1_loop.trips) : Fin 2 → Nat :=
  let c0_24 : Index := 0#32
  let c0_i32_8 : BitVec 32 := 0#32
  let c0_i32 : BitVec 32 := 0#32
  let c1_i32 : BitVec 32 := 1#32
  let arg7 : BitVec 32 := Scf.iv c0_i32 c1_i32 k1_t1
  let c1_i32_7 : BitVec 32 := 1#32
  let v10 : BitVec 32 := Scalar.muli arg7 c1_i32_7
  let v11 : BitVec 32 := Scalar.addi c0_i32_8 v10
  let c128_i32 : BitVec 32 := 128#32
  let v12 : BitVec 32 := Scalar.muli v11 c128_i32
  let v13 : BitVec 32 := v12
  let v66 : Index := Scalar.indexCast v13
  ![0, v66.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  h_S256x128 : 0 < S256x128.numel
  shapeCasts_S256x128_S256x128 : S256x128.ShapeCasts S256x128
  h_S2048x128 : 0 < S2048x128.numel
  shapeCasts_S2048x128_S2048x128 : S2048x128.ShapeCasts S2048x128
  slices_S256x128_o0_0_S256x64 : S256x128.Slices ![0, 0] S256x64
  slices_S256x128_o0_64_S256x64 : S256x128.Slices ![0, 64] S256x64
  slices_S2048x128_o0_0_S2048x64 : S2048x128.Slices ![0, 0] S2048x64
  slices_S2048x128_o0_64_S2048x64 : S2048x128.Slices ![0, 64] S2048x64
  reduces_S256x2048_S256 : S256x2048.Reduces [1] S256
  shapeCasts_S256_S256x1 : S256.ShapeCasts S256x1
  broadcasts_S256x1_S256x2048 : S256x1.Broadcasts S256x2048
  concatenates_S256x64_S256x64_S256x128_d1 : Shape.Concatenates [S256x64, S256x64] S256x128 1
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S256x1024 : S1x1024.Broadcasts S256x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3072.size a ≤ S2048x3072.size a
  hwx0_4 : ∀ i : grid0.Coords, EltTy.bits .bf16 = 32 ∨ (Rect.block (s := S2048x3072) S512x3072.size (cc0_transform_4 i) (hinb0_4 i)).WholeWords (EltTy.packing .bf16)
  hrank1 : 0 < grid1.rank
  k1_t1_ok : k1_t1_loop.OK
  k1_mult1_dvd : ∀ k1_t1 : Fin k1_t1_loop.trips, 128 ∣ (k1_mult1 k1_t1).toNat
  k1_mult2_dvd : ∀ k1_t1 : Fin k1_t1_loop.trips, 128 ∣ (k1_mult2 k1_t1).toNat
  k1_mult3_dvd : ∀ k1_t1 : Fin k1_t1_loop.trips, 128 ∣ (k1_mult3 k1_t1).toNat
  k1_off1_inb : ∀ k1_t1 : Fin k1_t1_loop.trips, ∀ a, (k1_off1 k1_t1) a + S256x128.size a ≤ S256x3072.size a
  k1_off2_inb : ∀ k1_t1 : Fin k1_t1_loop.trips, ∀ (r : Fin 2), ∀ a, (k1_off2 k1_t1 (BitVec.ofNat 32 (1024 + 1024 * r.val))) a + S2048x128.size a ≤ S2048x3072.size a
  k1_off3_inb : ∀ k1_t1 : Fin k1_t1_loop.trips, ∀ a, (k1_off3 k1_t1) a + S256x128.size a ≤ S256x1024.size a
  k1_off3_packedbf16 : ∀ k1_t1 : Fin k1_t1_loop.trips, (Rect.unit (s := S256x1024) (k1_off3 k1_t1) S256x128.size (k1_off3_inb k1_t1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3072.size a ≤ S2048x3072.size a
  hwx1_0 : ∀ i : grid1.Coords, EltTy.bits .bf16 = 32 ∨ (Rect.block (s := S2048x3072) S256x3072.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x3072.size a ≤ S2048x3072.size a
  hwx1_1 : ∀ i : grid1.Coords, EltTy.bits .bf16 = 32 ∨ (Rect.block (s := S2048x3072) S2048x3072.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S2048x1024.size a
  hwx1_4 : ∀ i : grid1.Coords, EltTy.bits .f32 = 32 ∨ (Rect.block (s := S2048x1024) S256x1024.size (cc1_transform_4 i) (hinb1_4 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x3072.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S256x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S1024 : Shape := ⟨1, ![1024]⟩
abbrev S1024x3072 : Shape := ⟨2, ![1024, 3072]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x3072 : Shape := ⟨2, ![2048, 3072]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 70
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x3072, .f32⟩
  | .hbm, ⟨4, _⟩ => ⟨S1024x1024, .f32⟩
  | .hbm, ⟨5, _⟩ => ⟨S1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x3072, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x16x64, .f32⟩
  | .hbm, ⟨40, _⟩ => ⟨S16x2048x64, .f32⟩
  | .hbm, ⟨41, _⟩ => ⟨S2048x16x64, .f32⟩
  | .hbm, ⟨42, _⟩ => ⟨S16x2048x64, .f32⟩
  | .hbm, ⟨43, _⟩ => ⟨S2048x16x64, .f32⟩
  | .hbm, ⟨44, _⟩ => ⟨S16x2048x64, .f32⟩
  | .hbm, ⟨45, _⟩ => ⟨S16x2048x2048, .f32⟩
  | .hbm, ⟨46, _⟩ => ⟨S_, .f32⟩
  | .hbm, ⟨47, _⟩ => ⟨S16x2048x2048, .f32⟩
  | .hbm, ⟨48, _⟩ => ⟨S16x2048x2048, .f32⟩
  | .hbm, ⟨49, _⟩ => ⟨S_, .f32⟩
  | .hbm, ⟨50, _⟩ => ⟨S16x2048, .f32⟩
  | .hbm, ⟨51, _⟩ => ⟨S_, .f32⟩
  | .hbm, ⟨52, _⟩ => ⟨S16x2048, .f32⟩
  | .hbm, ⟨53, _⟩ => ⟨S16x2048, .f32⟩
  | .hbm, ⟨54, _⟩ => ⟨S16x2048x1, .f32⟩
  | .hbm, ⟨55, _⟩ => ⟨S16x2048x2048, .f32⟩
  | .hbm, ⟨56, _⟩ => ⟨S16x2048x2048, .f32⟩
  | .hbm, ⟨57, _⟩ => ⟨S16x2048x2048, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S16x2048x2048, .f32⟩
  | .hbm, ⟨62, _⟩ => ⟨S16x2048x2048, .f32⟩
  | .hbm, ⟨63, _⟩ => ⟨S16x2048x64, .f32⟩
  | .hbm, ⟨64, _⟩ => ⟨S2048x16x64, .f32⟩
  | .hbm, ⟨65, _⟩ => ⟨S2048x1024, .f32⟩
  | .hbm, ⟨66, _⟩ => ⟨S2048x1024, .f32⟩
  | .hbm, ⟨67, _⟩ => ⟨S1x1024, .f32⟩
  | .hbm, ⟨68, _⟩ => ⟨S2048x1024, .f32⟩
  | .hbm, ⟨69, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  slices_S2048x3072_S2048x1024_0_0 : S2048x3072.Slices ![0, 0] S2048x1024
  slices_S2048x3072_S2048x1024_0_1024 : S2048x3072.Slices ![0, 1024] S2048x1024
  slices_S2048x3072_S2048x1024_0_2048 : S2048x3072.Slices ![0, 2048] S2048x1024
  shapeCasts_S2048x1024_S2048x16x64 : S2048x1024.ShapeCasts S2048x16x64
  transposes_S2048x16x64_S16x2048x64_1_0_2 : S2048x16x64.Transposes [1, 0, 2] S16x2048x64
  bcast_S_S16x2048x2048 : S_.BroadcastsInDim S16x2048x2048 (![] : Fin 0 → Fin S16x2048x2048.rank)
  reducesTo_S16x2048x2048_S16x2048_d2 : S16x2048x2048.ReducesTo [2] S16x2048
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  dot_S2048x1024_S1024x3072_S2048x3072_1_0_0_1_n_n_wf : DotDims.WF S2048x1024 S1024x3072 S2048x3072 [1] [0] [0] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]
  dot_S2048x1024_S1024x1024_S2048x1024_1_0_0_1_n_n_wf : DotDims.WF S2048x1024 S1024x1024 S2048x1024 [1] [0] [0] [1] [] []

variable [Facts₀]

def dot_S2048x1024_S1024x3072_S2048x3072_1_0_0_1_n_n : DotDims S2048x1024 S1024x3072 S2048x3072 where
  lhsContracting := [1]
  rhsContracting := [0]
  lhsNonContracting := [0]
  rhsNonContracting := [1]
  lhsBatch := []
  rhsBatch := []
  wf := dot_S2048x1024_S1024x3072_S2048x3072_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.K.Body0.lean ====
/-
  The first kernel region: a row tile of layer norm followed by the projection onto the packed q | k | v columns.
  At a grid point the body reads its four input blocks whole and overwrites the output block whole with one
  payload of them; nothing is kept between points.
-/
import proofs.«421590_j85392539779833_3_alg».proof.Proof.Gen.Kernel.Launch
import proofs.«421590_j85392539779833_3_alg».proof.Proof.Gen.Kernel.Skeleton
import proofs.«421590_j85392539779833_3_alg».proof.Proof.Gen.Kernel.Loops
import proofs.«421590_j85392539779833_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row tile of x): its staging buffer holds its block at every point, fetched there or kept from the
    point before (an unfetched point has the block index of the one before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the layer-norm scale): its staging buffer holds its block at every point, fetched there or kept from the
    point before (an unfetched point has the block index of the one before it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the layer-norm bias): its staging buffer holds its block at every point, fetched there or kept from the
    point before (an unfetched point has the block index of the one before it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the projection weights): its staging buffer holds its block at every point, fetched there or kept from the
    point before (an unfetched point has the block index of the one before it). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole output block as one rectangle. -/
abbrev rOut0 : Rect S512x3072 := Rect.unit (s := S512x3072) ![0, 0] S512x3072.size inb_S512x3072_S512x3072_0_0
abbrev rX0 : Rect S512x1024 := Rect.unit (s := S512x1024) ![0, 0] S512x1024.size inb_S512x1024_S512x1024_0_0
abbrev rP0 : Rect S1024 := Rect.unit (s := S1024) ![0] S1024.size inb_S1024_S1024_0
abbrev rW0 : Rect S1024x3072 := Rect.unit (s := S1024x3072) ![0, 0] S1024x3072.size inb_S1024x3072_S1024x3072_0_0

/-- What the body leaves in the output block: its one store, of the payload of the four blocks it loaded. -/
def out0 (x0 : Vec F S512x1024 .f32) (x1 x2 : Vec F S1024 .f32) (x3 : Vec F S1024x3072 .bf16) : Vec F S512x3072 .bf16 :=
  View.canon [⟨rOut0, k0_pay1 (View.ld x0 rX0) (View.ld x1 rP0) (View.ld x2 rP0) (View.ld x3 rW0)⟩]

/-- The one store covers the block. -/
theorem cover0 (p0 : Vec F S512x3072 .bf16) (y : S512x3072.Idx) :
    ∃ pc ∈ ([⟨rOut0, p0⟩] : List (View.Piece (Elt F) S512x3072 .bf16)), y ∈ pc.1.set :=
  View.cover_of_tiled [⟨rOut0, p0⟩] S512x3072.size (by rfl) y

set_option maxHeartbeats 4000000 in
/-- The body on whole staging buffers: the four inputs are read and left as they were, the output block ends at `out0`. -/
theorem sound_kernel0 (c : Dev nD) (E : Set ℕ) (i : grid0.Coords)
    (arg1 : Memref sig .tc .vmem S512x1024 .f32) (harg1 : arg1.IsWhole) (arg2 : Memref sig .tc .vmem S1024 .f32) (harg2 : arg2.IsWhole)
    (arg3 : Memref sig .tc .vmem S1024 .f32) (harg3 : arg3.IsWhole) (arg4 : Memref sig .tc .vmem S1024x3072 .bf16) (harg4 : arg4.IsWhole)
    (arg5 : Memref sig .tc .vmem S512x3072 .bf16) (harg5 : arg5.IsWhole)
    (x0 : Vec F S512x1024 .f32) (x1 x2 : Vec F S1024 .f32) (x3 : Vec F S1024x3072 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0 x0 x1 x2 x3)) -∗ K ⟨⟩))
      ⊢ wp frame (wpE (defs₀ (F := F)) Variants.none c none) E (cc0__ln_qkv_kernel i arg1 harg1 arg2 harg2 arg3 harg3 arg4 harg4 arg5 harg5) K := by
  simp only [cc0__ln_qkv_kernel_eq_skeleton]; unfold cc0__ln_qkv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-- The proof data of the first region on core `c`: the arrays as the region finds them; after the body each input's
    buffer at its block and the output's at `out0` of the input blocks; the scratch and the generator register ride
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The second kernel region: for a tile of 256 query rows, eight trips of a loop each compute two heads' softmax
  attention against all 2048 key and value rows and store the pair's 128 output lanes into a scratch tile; after the
  loop the scratch tile, now written everywhere, is projected by the output weights and shifted by the bias into the
  output block. The query tile and the key / value rows are two windows onto ONE array, the packed projection.
-/
import proofs.«421590_j85392539779833_3_alg».proof.Proof.Gen.Kernel.Launch
import proofs.«421590_j85392539779833_3_alg».proof.Proof.Gen.Kernel.Skeleton
import proofs.«421590_j85392539779833_3_alg».proof.Proof.Gen.Kernel.Loops
import proofs.«421590_j85392539779833_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the tile of query rows): its staging buffer holds its block at every point, fetched there or kept from the
    point before (an unfetched point has the block index of the one before it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (all rows of the packed projection): its staging buffer holds its block at every point, fetched there or kept from the
    point before (an unfetched point has the block index of the one before it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the output weights): its staging buffer holds its block at every point, fetched there or kept from the
    point before (an unfetched point has the block index of the one before it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the output bias): its staging buffer holds its block at every point, fetched there or kept from the
    point before (an unfetched point has the block index of the one before it). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches -/

abbrev rOut1 : Rect S256x1024 := Rect.unit (s := S256x1024) ![0, 0] S256x1024.size inb_S256x1024_S256x1024_0_0
abbrev rWo1 : Rect S1024x1024 := Rect.unit (s := S1024x1024) ![0, 0] S1024x1024.size inb_S1024x1024_S1024x1024_0_0
abbrev rB1 : Rect S1024 := Rect.unit (s := S1024) ![0] S1024.size inb_S1024_S1024_0
/-- Trip `k`'s 128 query lanes, its 128 key lanes and its 128 value lanes of the packed columns, and its 128 lanes of
    the scratch. -/
abbrev rQ (k : Fin k1_t1_loop.trips) : Rect S256x3072 := Rect.unit (s := S256x3072) (k1_off1 k) S256x128.size (k1_off1_inb k)
abbrev rK (k : Fin k1_t1_loop.trips) : Rect S2048x3072 := Rect.unit (s := S2048x3072) (k1_off2 k 1024#32) S2048x128.size (k1_off2_inb k 0)
abbrev rV (k : Fin k1_t1_loop.trips) : Rect S2048x3072 := Rect.unit (s := S2048x3072) (k1_off2 k 2048#32) S2048x128.size (k1_off2_inb k 1)
abbrev rS (k : Fin k1_t1_loop.trips) : Rect S256x1024 := Rect.unit (s := S256x1024) (k1_off3 k) S256x128.size (k1_off3_inb k)

/-- The loop makes eight trips. -/
theorem trips_eq : k1_t1_loop.trips = 8 := by decide

/-! ## What the loop leaves in the scratch -/

/-- The tile trip `k` stores, from the query block `x0` and the block `x1` of all rows. -/
def tile (x0 : Vec F S256x3072 .bf16) (x1 : Vec F S2048x3072 .bf16) (k : Fin k1_t1_loop.trips) : FVec F S256x128 .bf16 :=
  k1_pay1 (k1_pay6 (View.ld x1 (rV k))) (k1_pay7 (View.ld x0 (rQ k)) (View.ld x1 (rK k)) (View.ld x1 (rV k)))
    (k1_pay8 (View.ld x0 (rQ k)) (View.ld x1 (rK k))) k1_pay9

/-- The stores of the trips before `n`, last first. -/
def pcs (x0 : Vec F S256x3072 .bf16) (x1 : Vec F S2048x3072 .bf16) : ℕ → List (View.Piece (Elt F) S256x1024 .bf16)
  | 0 => []
  | n + 1 => if h : n < k1_t1_loop.trips then ⟨rS ⟨n, h⟩, tile x0 x1 ⟨n, h⟩⟩ :: pcs x0 x1 n else pcs x0 x1 n

/-- Trip `k`'s store is among those of the trips before any later `n`. -/
theorem mem_pcs (x0 : Vec F S256x3072 .bf16) (x1 : Vec F S2048x3072 .bf16) :
    ∀ (n k : ℕ) (hk : k < n) (h : k < k1_t1_loop.trips),
      (⟨rS ⟨k, h⟩, tile x0 x1 ⟨k, h⟩⟩ : View.Piece (Elt F) S256x1024 .bf16) ∈ pcs x0 x1 n
  | n + 1, k, hk, h => by
    rw [pcs]
    by_cases hn : n < k1_t1_loop.trips
    · rw [dif_pos hn]
      rcases Nat.lt_succ_iff_lt_or_eq.mp hk with hlt | heq
      · exact List.mem_cons_of_mem _ (mem_pcs x0 x1 n k hlt h)
      · subst heq; exact List.mem_cons_self ..
    · rw [dif_neg hn]; exact mem_pcs x0 x1 n k (by omega) h

/-- The eight trips' stores cover the scratch: column `j` lies in the lanes of trip `j / 128`. -/
theorem cover_scr (x0 : Vec F S256x3072 .bf16) (x1 : Vec F S2048x3072 .bf16) (y : S256x1024.Idx) :
    ∃ p ∈ pcs x0 x1 k1_t1_loop.trips, y ∈ p.1.set := by
  have hy0 : (y 0).val < 256 := (y 0).isLt
  have hy1 : (y 1).val < 1024 := (y 1).isLt
  have ht : k1_t1_loop.trips = 8 := trips_eq
  have hk : (y 1).val / 128 < k1_t1_loop.trips := by omega
  refine ⟨_, mem_pcs x0 x1 _ _ hk hk, ?_⟩
  show y ∈ (Rect.unit (s := S256x1024) (k1_off3 ⟨(y 1).val / 128, hk⟩) S256x128.size (k1_off3_inb _)).set
  rw [Rect.mem_set_unit]
  intro a
  rw [k1_off3_eq]
  match a with
  | ⟨0, _⟩ => exact ⟨Nat.zero_le _, by show (y 0).val < 0 + 256; omega⟩
  | ⟨1, _⟩ => exact ⟨by show 128 * ((y 1).val / 128) ≤ (y 1).val; omega, by show (y 1).val < 128 * ((y 1).val / 128) + 128; omega⟩

/-- The scratch after the loop, whatever it held before. -/
def scratchAfter (x0 : Vec F S256x3072 .bf16) (x1 : Vec F S2048x3072 .bf16) : Vec F S256x1024 .bf16 :=
  View.canon (pcs x0 x1 k1_t1_loop.trips)

/-- What the body leaves in the output block: its one store, after the loop. -/
def out1 (x0 : Vec F S256x3072 .bf16) (x1 : Vec F S2048x3072 .bf16) (x2 : Vec F S1024x1024 .bf16) (x3 : Vec F S1024 .f32) : Vec F S256x1024 .f32 :=
  View.canon [⟨rOut1, k1_pay2 (View.ld (scratchAfter x0 x1) rOut1) (View.ld x2 rWo1) (View.ld x3 rB1)⟩]

theorem cover1 (p0 : Vec F S256x1024 .f32) (y : S256x1024.Idx) :
    ∃ pc ∈ ([⟨rOut1, p0⟩] : List (View.Piece (Elt F) S256x1024 .f32)), y ∈ pc.1.set :=
  View.cover_of_tiled [⟨rOut1, p0⟩] S256x1024.size (by rfl) y

section Loop

variable (c : Dev nD) (i : grid1.Coords) (arg1 : Memref sig .tc .vmem S256x3072 .bf16) (harg1 : arg1.IsWhole) (arg2 : Memref sig .tc .vmem S2048x3072 .bf16) (harg2 : arg2.IsWhole)
    (arg3 : Memref sig .tc .vmem S1024x1024 .bf16) (harg3 : arg3.IsWhole) (arg4 : Memref sig .tc .vmem S1024 .f32) (harg4 : arg4.IsWhole)
    (arg5 : Memref sig .tc .vmem S256x1024 .f32) (harg5 : arg5.IsWhole) (arg6 : Memref sig .tc .vmem S256x1024 .bf16) (harg6 : arg6.IsWhole)
    (f1 : BufTy.Contents (Elt F) arg1.view.ty) (f2 : BufTy.Contents (Elt F) arg2.view.ty)

/-- One trip's store, read off the loop's own record of it: the trip's rectangle of the scratch, and the tile computed
    from the lanes of the two buffers' contents. -/
theorem tripL_eq (k : Fin k1_t1_loop.trips) :
    tripL_k1_t1 (F := F) Variants.none c none i arg1 harg1 arg2 harg2 arg3 harg3 arg4 harg4 arg5 harg5 arg6 harg6 f1 f2 k
      = [⟨rS k, tile (arg1.view.read (Elt F) f1) (arg2.view.read (Elt F) f2) k⟩] := by
  unfold tripL_k1_t1
  unfold trip_k1_t1
  dsimp only
  unfold trip_k1_t1.sl.r trip_k1_t1.sl.r_1 trip_k1_t1.sl.r_2 tile
  simp only [View.readAt_eq_ld]

/-- The loop's record of the trips before `n` is the list of their stores. -/
theorem pb_eq : ∀ n : ℕ, pb_k1_t1 (F := F) Variants.none c none i arg1 harg1 arg2 harg2 arg3 harg3 arg4 harg4 arg5 harg5 arg6 harg6 f1 f2 n
      = pcs (arg1.view.read (Elt F) f1) (arg2.view.read (Elt F) f2) n
  | 0 => rfl
  | n + 1 => by
    rw [pb_k1_t1.eq_2, pcs]; unfold pb_k1_t1Step
    by_cases hn : n < k1_t1_loop.trips
    · rw [dif_pos hn, dif_pos hn, tripL_eq, pb_eq n]; rfl
    · rw [dif_neg hn, dif_neg hn, pb_eq n]

end Loop

/-- The output block after the body's last store, read back: `out1` of what the four input buffers hold. -/
theorem out1_read (c : Dev nD) (i : grid1.Coords) (arg1 : Memref sig .tc .vmem S256x3072 .bf16) (harg1 : arg1.IsWhole) (arg2 : Memref sig .tc .vmem S2048x3072 .bf16) (harg2 : arg2.IsWhole)
    (arg3 : Memref sig .tc .vmem S1024x1024 .bf16) (harg3 : arg3.IsWhole) (arg4 : Memref sig .tc .vmem S1024 .f32) (harg4 : arg4.IsWhole)
    (arg5 : Memref sig .tc .vmem S256x1024 .f32) (harg5 : arg5.IsWhole) (arg6 : Memref sig .tc .vmem S256x1024 .bf16) (harg6 : arg6.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) :
    arg5.view.read (Elt F) (arg5.view.writes (Elt F) f5
      [⟨rOut1, k1_pay2
          (View.readAt (Elt F) arg6.view rOut1.toLoadRect
            (arg6.view.writes (Elt F) f6 (pb_k1_t1 (F := F) Variants.none c none i arg1 harg1 arg2 harg2 arg3 harg3 arg4 harg4 arg5 harg5 arg6 harg6 f1 f2 k1_t1_loop.trips)))
          (View.readAt (Elt F) arg3.view rWo1.toLoadRect f3) (View.readAt (Elt F) arg4.view rB1.toLoadRect f4)⟩])
      = out1 (arg1.view.read (Elt F) f1) (arg2.view.read (Elt F) f2) (arg3.view.read (Elt F) f3) (arg4.view.read (Elt F) f4) := by
  rw [View.read_writes_eq_canon _ _ _ (cover1 _)]
  rw [View.readAt_eq_ld, View.readAt_eq_ld, View.readAt_eq_ld, pb_eq,
    View.read_writes_eq_canon _ _ _ (cover_scr _ _)]
  rfl

set_option maxHeartbeats 4000000 in
/-- The body on whole staging buffers and the whole scratch: the four inputs are read and left as they were, the output
    block ends at `out1` of them, the scratch at something. -/
theorem sound_kernel1 (c : Dev nD) (E : Set ℕ) (i : grid1.Coords) (arg1 : Memref sig .tc .vmem S256x3072 .bf16) (harg1 : arg1.IsWhole) (arg2 : Memref sig .tc .vmem S2048x3072 .bf16) (harg2 : arg2.IsWhole)
    (arg3 : Memref sig .tc .vmem S1024x1024 .bf16) (harg3 : arg3.IsWhole) (arg4 : Memref sig .tc .vmem S1024 .f32) (harg4 : arg4.IsWhole)
    (arg5 : Memref sig .tc .vmem S256x1024 .f32) (harg5 : arg5.IsWhole) (arg6 : Memref sig .tc .vmem S256x1024 .bf16) (harg6 : arg6.IsWhole)
    (x0 : Vec F S256x3072 .bf16) (x1 : Vec F S2048x3072 .bf16) (x2 : Vec F S1024x1024 .bf16) (x3 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)
            ∗ (∃ d, owns (c : Thread nD τ) arg6 fullShare d)) -∗ K ⟨⟩))
      ⊢ wp frame (wpE (defs₀ (F := F)) Variants.none c none) E (cc1__kernel i arg1 harg1 arg2 harg2 arg3 harg3 arg4 harg4 arg5 harg5 arg6 harg6) K := by
  simp only [cc1__kernel_eq_skeleton]; unfold cc1__kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact out1_read c i arg1 harg1 arg2 harg2 arg3 harg3 arg4 harg4 arg5 harg5 arg6 harg6 f1 f2 f3 f4 f5 f6
  iexists _; iexists _; isplitr
  swap; · iexact H6
  ipureintro; rfl

/-- The proof data of the second region on core `c`: the arrays as the region finds them; after the body each input's
    buffer at its block and the output's at `out1` of the input blocks; the scratch and the generator register ride in the
    invariant at anything; nothing owed. The query-tile window and the all-rows window read one array: each holds half of
    it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The region's invariant with the scratch as a buffer owned at some contents, beside the other scoped buffers and the
    generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
          ∗ (∃ d, owns (c : Thread nD τ) (Memref.whole cc1_scratch0) fullShare d)) ∗ (∃ r, prngReg c r)) := by
  unfold Pipeline.ΦA; rw [scopedRest1_eq]; simp only [owns_whole]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks and the invariant lends the scratch, so the body's
    triple applies; the scratch goes back into the invariant at whatever it now holds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, PhiA1_eq]
  iintro ⟨⟨⟨Hr0, Hr1, Hr2, Hr3, Hr4, Hr5, Hr6, HS⟩, Hg⟩, Ho, ⟨%d0, H0⟩, ⟨%d1, H1⟩, ⟨%d2, H2⟩, ⟨%d3, H3⟩, ⟨%d4, H4⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [Hr0 Hr1 Hr2 Hr3 Hr4 Hr5 Hr6 HS Hg]
  · isplitr [Hg]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact HS
    iexact Hg
  isplitl [Ho]; · iexact Ho
  isplitl [H0]; · iexact H0
  isplitl [H1]; · iexact H1
  isplitl [H2]; · iexact H2
  isplitl [H3]; · iexact H3
  iexact H4

/-- The body obligation of the second region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as segments: the host stretch that narrows the two weight matrices, the first region, the second
  region. Between segments core `c` holds every unscoped buffer at named contents: at launch the memory's; after the host
  stretch the two narrowed weights as well; after the first region the packed projection at what its write-backs leave;
  after the second the result at what its write-backs leave. No segment writes an argument.
-/
import proofs.«421590_j85392539779833_3_alg».proof.Proof.K.Body0
import proofs.«421590_j85392539779833_3_alg».proof.Proof.K.Body1
import proofs.«421590_j85392539779833_3_alg».proof.Proof.Gen.Kernel.Regions
import Idealize.ShloMosaic.Lib.Pipeline.RegionsLoop
import Idealize.ShloMosaic.Lib.Pipeline.FrameSuffix
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the segment boundaries -/

/-- At launch. -/
abbrev W0 (c : Dev nD) : Valuation τ sig (Elt F) := fun b => m (c, b)
/-- After the host stretch: the first region's entry. -/
abbrev W1 (c : Dev nD) : Valuation τ sig (Elt F) := StableHlo.after hostOps0 (W0 m c)
abbrev E0 : (c : Dev nD) → (b : Ref sig .tc) → Buf (Elt F) ((c : Thread nD τ).loc b) := fun c b => W1 m c b
/-- The packed projection as the first region leaves it: its array after the write-backs of all four points. -/
def qkvArr (c : Dev nD) : Buf (Elt F) ((c : Thread nD τ).loc main_v2) := (dat0 (E0 m) c).arrAt 4 cfg0.N
/-- After the first region: the second region's entry. -/
def W2 (c : Dev nD) : Valuation τ sig (Elt F) := Function.update (W1 m c) main_v2 (qkvArr m c)
abbrev E1 : (c : Dev nD) → (b : Ref sig .tc) → Buf (Elt F) ((c : Thread nD τ).loc b) := fun c b => W2 m c b
/-- The result as the second region leaves it: its array after the write-backs of all eight points. -/
def resArr (c : Dev nD) : Buf (Elt F) ((c : Thread nD τ).loc main_v3) := (dat1 (E1 m) c).arrAt 4 cfg1.N
/-- After the second region: what the program ends with. -/
def W3 (c : Dev nD) : Valuation τ sig (Elt F) := Function.update (W2 m c) main_v3 (resArr m c)
abbrev E2 : (c : Dev nD) → (b : Ref sig .tc) → Buf (Elt F) ((c : Thread nD τ).loc b) := fun c b => W3 m c b

theorem W2_v2 (c : Dev nD) : W2 m c main_v2 = qkvArr m c := by unfold W2; exact Function.update_self ..
theorem W2_of_ne (c : Dev nD) (b : Ref sig .tc) (h : b ≠ main_v2) : W2 m c b = W1 m c b := by
  unfold W2; exact Function.update_of_ne (StableHlo.devRef_ne_of_ne h) ..
theorem W3_v3 (c : Dev nD) : W3 m c main_v3 = resArr m c := by unfold W3; exact Function.update_self ..
theorem W3_of_ne (c : Dev nD) (b : Ref sig .tc) (h : b ≠ main_v3) : W3 m c b = W2 m c b := by
  unfold W3; exact Function.update_of_ne (StableHlo.devRef_ne_of_ne h) ..

/-- An argument's buffer is never written: at the end it holds what the launch memory held. -/
theorem W3_arg (c : Dev nD) (b : Ref sig .tc) (h3 : b ≠ main_v3) (h2 : b ≠ main_v2) (h01 : b ∉ hostOps0_W) :
    W3 m c b = m ((c : Thread nD τ).loc b) :=
  (W3_of_ne m c b h3).trans <| (W2_of_ne m c b h2).trans <| (V1_of m c b h01).trans rfl

/-! ## The proof data of both regions -/

/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## The first region -/

/-- At the first region's exit each of its arrays holds what the pipeline leaves: the four inputs what they held, the
    output its write-backs. -/
theorem hF0 (c : Dev nD) (w : Fin cfg0.W) : (dat0 (E0 m) c).arrAt w cfg0.N = E1 m c (Pipeline.arrRef spec0 w) :=
  match w with
  | ⟨0, _⟩ => ((dat0 (E0 m) c).arrAt_in 0 rfl _).trans ((A_eq0 (E0 m) c 0).trans (W2_of_ne m c main_arg0 (by decide)).symm)
  | ⟨1, _⟩ => ((dat0 (E0 m) c).arrAt_in 1 rfl _).trans ((A_eq0 (E0 m) c 1).trans (W2_of_ne m c main_arg1 (by decide)).symm)
  | ⟨2, _⟩ => ((dat0 (E0 m) c).arrAt_in 2 rfl _).trans ((A_eq0 (E0 m) c 2).trans (W2_of_ne m c main_arg2 (by decide)).symm)
  | ⟨3, _⟩ => ((dat0 (E0 m) c).arrAt_in 3 rfl _).trans ((A_eq0 (E0 m) c 3).trans (W2_of_ne m c main_v0 (by decide)).symm)
  | ⟨4, _⟩ => (W2_v2 m c).symm
/-- Every other buffer holds what it held at entry. -/
theorem hrest0 (c : Dev nD) : ∀ b, b ∉ Finset.univ.image (Pipeline.arrRef spec0) → E1 m c b = E0 m c b :=
  fun b hb => W2_of_ne m c b fun e => hb (Finset.mem_image.mpr ⟨4, Finset.mem_univ _, e.symm⟩)

set_option backward.isDefEq.respectTransparency.types false in
/-- The first region as a segment: entered from every unscoped buffer at `W1`, left at `W2`. Its five arrays are taken
    out of the unscoped buffers and put back at the exit contents; the generator register passes through the invariant;
    nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: two reading windows on one array -/

/-- The buffers behind the second region's arrays, one by one: the packed projection, the narrowed output weights, the
    output bias, the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v1) ↦{fullShare} V main_v1)
          ∗ (((c : Thread nD τ).loc main_arg5) ↦{fullShare} V main_arg5) ∗ (((c : Thread nD τ).loc main_v3) ↦{fullShare} V main_v3)) := by
  unfold Pipeline.arrBufs
  exact bigSep_eq_bigSepL_of_eq [main_v2, main_v1, main_arg5, main_v3] (by decide) (by decide) _

/-- The second region's arrays at contents `G`, window by window: the query-tile window and the all-rows window each
    hold half of the packed projection; the other three hold their arrays whole. -/
theorem arrays1_eq (c : Dev nD) (V : (c : Dev nD) → (b : Ref sig .tc) → Buf (Elt F) ((c : Thread nD τ).loc b))
    (G : (b : Ref sig .tc) → Buf (Elt F) ((c : Thread nD τ).loc b)) :
    ((dat1 V c).arrays (fun w => G (Pipeline.arrRef spec1 w)) : sProp 𝕄)
      = iprop((((c : Thread nD τ).loc main_v2) ↦{fullShare.left} G main_v2) ∗ (((c : Thread nD τ).loc main_v2) ↦{fullShare.right} G main_v2)
          ∗ (((c : Thread nD τ).loc main_v1) ↦{fullShare} G main_v1) ∗ (((c : Thread nD τ).loc main_arg5) ↦{fullShare} G main_arg5)
          ∗ (((c : Thread nD τ).loc main_v3) ↦{fullShare} G main_v3)) := by
  unfold Pipeline.Dat.arrays
  rw [bigSep_W1]
  simp only [View.set_whole]
  rfl

/-- Entering: the packed projection's buffer, whole, is dealt to its two reading windows half and half. -/
theorem hsplit1 (c : Dev nD) (V : (c : Dev nD) → (b : Ref sig .tc) → Buf (Elt F) ((c : Thread nD τ).loc b))
    (G : (b : Ref sig .tc) → Buf (Elt F) ((c : Thread nD τ).loc b)) :
    (Pipeline.arrBufs (Ix := Unit) (Name := ℕ) (U := UR sig nD τ) (Lvl := ℕ) spec1 c G : sProp 𝕄)
      ⊢ (dat1 V c).arrays (fun w => G (Pipeline.arrRef spec1 w)) := by
  rw [arrBufs1_eq, arrays1_eq]
  have hsh : ((((c : Thread nD τ).loc main_v2) ↦{fullShare} G main_v2) : sProp 𝕄)
      ⊢ iprop((((c : Thread nD τ).loc main_v2) ↦{fullShare.left} G main_v2) ∗ (((c : Thread nD τ).loc main_v2) ↦{fullShare.right} G main_v2)) :=
    (pointsTo_share (PosShare.mem_left_op_right fullShare)).1
  iintro ⟨H2, H1, H5, H3⟩
  ihave H2' := hsh $$ H2
  icases H2' with ⟨H2l, H2r⟩
  isplitl [H2l]; · iexact H2l
  isplitl [H2r]; · iexact H2r
  isplitl [H1]; · iexact H1
  isplitl [H5]; · iexact H5
  iexact H3

/-- Leaving: the two halves are one whole buffer again. -/
theorem hjoin1 (c : Dev nD) (V : (c : Dev nD) → (b : Ref sig .tc) → Buf (Elt F) ((c : Thread nD τ).loc b))
    (G : (b : Ref sig .tc) → Buf (Elt F) ((c : Thread nD τ).loc b)) :
    ((dat1 V c).arrays (fun w => G (Pipeline.arrRef spec1 w)) : sProp 𝕄)
      ⊢ Pipeline.arrBufs (Ix := Unit) (Name := ℕ) (U := UR sig nD τ) (Lvl := ℕ) spec1 c G := by
  rw [arrBufs1_eq, arrays1_eq]
  have hsh : iprop((((c : Thread nD τ).loc main_v2) ↦{fullShare.left} G main_v2) ∗ (((c : Thread nD τ).loc main_v2) ↦{fullShare.right} G main_v2))
      ⊢ ((((c : Thread nD τ).loc main_v2) ↦{fullShare} G main_v2) : sProp 𝕄) :=
    (pointsTo_share (PosShare.mem_left_op_right fullShare)).2
  iintro ⟨H2l, H2r, H1, H5, H3⟩
  ihave H2 := hsh $$ [H2l H2r]
  · isplitl [H2l]; · iexact H2l
    iexact H2r
  isplitl [H2]; · iexact H2
  isplitl [H1]; · iexact H1
  isplitl [H5]; · iexact H5
  iexact H3

/-- At the second region's exit each of its arrays holds what the pipeline leaves: the four inputs what they held, the
    output its write-backs. -/
theorem hF1 (c : Dev nD) (w : Fin cfg1.W) : (dat1 (E1 m) c).arrAt w cfg1.N = E2 m c (Pipeline.arrRef spec1 w) :=
  match w with
  | ⟨0, _⟩ => ((dat1 (E1 m) c).arrAt_in 0 rfl _).trans ((A_eq1 (E1 m) c 0).trans (W3_of_ne m c main_v2 (by decide)).symm)
  | ⟨1, _⟩ => ((dat1 (E1 m) c).arrAt_in 1 rfl _).trans ((A_eq1 (E1 m) c 1).trans (W3_of_ne m c main_v2 (by decide)).symm)
  | ⟨2, _⟩ => ((dat1 (E1 m) c).arrAt_in 2 rfl _).trans ((A_eq1 (E1 m) c 2).trans (W3_of_ne m c main_v1 (by decide)).symm)
  | ⟨3, _⟩ => ((dat1 (E1 m) c).arrAt_in 3 rfl _).trans ((A_eq1 (E1 m) c 3).trans (W3_of_ne m c main_arg5 (by decide)).symm)
  | ⟨4, _⟩ => (W3_v3 m c).symm

/-- The buffers that are no array of the second region hold at its exit what they held at its entry. -/
theorem rest1_eq (c : Dev nD) :
    (Pipeline.unscopedRest (Ix := Unit) (Name := ℕ) (U := UR sig nD τ) (Lvl := ℕ) spec1 c (E1 m c) : sProp 𝕄)
      = Pipeline.unscopedRest (Ix := Unit) (Name := ℕ) (U := UR sig nD τ) (Lvl := ℕ) spec1 c (E2 m c) := by
  rw [unscopedRest1_eq, unscopedRest1_eq]
  rw [show E2 m c main_arg0 = E1 m c main_arg0 from W3_of_ne m c main_arg0 (by decide),
    show E2 m c main_arg1 = E1 m c main_arg1 from W3_of_ne m c main_arg1 (by decide),
    show E2 m c main_arg2 = E1 m c main_arg2 from W3_of_ne m c main_arg2 (by decide),
    show E2 m c main_arg3 = E1 m c main_arg3 from W3_of_ne m c main_arg3 (by decide),
    show E2 m c main_arg4 = E1 m c main_arg4 from W3_of_ne m c main_arg4 (by decide),
    show E2 m c main_v0 = E1 m c main_v0 from W3_of_ne m c main_v0 (by decide)]

/-- From every unscoped buffer at the entry contents: the region's arrays at those contents, and the rest. -/
theorem entry1 (c : Dev nD) :
    (StableHlo.held (c : Thread nD τ) (Pipeline.ucRefs τ sig) (W2 m c) : sProp 𝕄)
      ⊢ iprop((pdats m 1 c).arrays ((pdats m 1 c).arrAt · 0)
          ∗ Pipeline.unscopedRest (Ix := Unit) (Name := ℕ) (U := UR sig nD τ) (Lvl := ℕ) spec1 c (E1 m c)) := by
  rw [← Pipeline.unscopedBufs_held c (W2 m c), Pipeline.unscopedBufs_split₀ cfgs 1 winFacts₀1.arr_unscoped c]
  exact sep_mono (hsplit1 c (E1 m) (E1 m c)) .rfl

/-- From the region's arrays at what the pipeline leaves and the rest: every unscoped buffer at the exit contents. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (E1 m c))
      ⊢ (StableHlo.held (c : Thread nD τ) (Pipeline.ucRefs τ sig) (W3 m c) : sProp 𝕄) := by
  rw [← Pipeline.unscopedBufs_held c (W3 m c), Pipeline.unscopedBufs_split₀ cfgs 1 winFacts₀1.arr_unscoped c, rest1_eq m c,
    show ((pdats m 1 c).arrAt · cfg1.N) = fun w => E2 m c (Pipeline.arrRef spec1 w) from funext (hF1 m c)]
  exact sep_mono (hjoin1 c (E1 m) (E2 m c)) .rfl

set_option backward.isDefEq.respectTransparency.types false in
/-- The second region as a segment: entered from every unscoped buffer at `W2`, left at `W3`. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The last thread state beside the core owing nothing. -/
theorem last_chain (c : Dev nD) :
    iprop(StableHlo.held (c : Thread nD τ) (Pipeline.ucRefs τ sig) (W3 m c) ∗ R c)
      ⊢ (iprop(iprop(StableHlo.held (c : Thread nD τ) (Pipeline.ucRefs τ sig) (W3 m c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- The host stretch as a segment from the launch contents. -/
abbrev hseg0 : HostSeg (Name := ℕ) (U := UR sig nD τ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The program's three segments in order. -/
abbrev segs : List (Seg (pcfgs (F := F)) adm (pdats m) () defs₀ 𝒱₀ L lv) :=
  [.host (hseg0 m), .region (reg0 m), .region (reg1 m)]

theorem main_run (c : Dev nD) : main (F := F) c = Seg.run (segs m) := (main_chain c).trans (by chain_rfl)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting; at the end the result buffer holds `resArr` — the second region's output array after all its
    write-backs — and every argument what it held at launch. -/
theorem run_main (ρ : Dev nD → PrngReg) :
    θ_run defs (onTc (τ := τ) (main (F := F))) ⟨m, fun _ => 0, ρ⟩ (fun r => ∀ c : Dev nD,
      r.2.mem ((c.tc : Thread nD τ).loc main_v3) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c => last_chain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_v3 m c),
       (h c _ (mem_uc main_arg0 (by decide))).trans (W3_arg m c main_arg0 (by decide) (by decide) (by decide)),
       (h c _ (mem_uc main_arg1 (by decide))).trans (W3_arg m c main_arg1 (by decide) (by decide) (by decide)),
       (h c _ (mem_uc main_arg2 (by decide))).trans (W3_arg m c main_arg2 (by decide) (by decide) (by decide)),
       (h c _ (mem_uc main_arg3 (by decide))).trans (W3_arg m c main_arg3 (by decide) (by decide) (by decide)),
       (h c _ (mem_uc main_arg4 (by decide))).trans (W3_arg m c main_arg4 (by decide) (by decide) (by decide)),
       (h c _ (mem_uc main_arg5 (by decide))).trans (W3_arg m c main_arg5 (by decide) (by decide) (by decide))⟩)

end Cert.Kernel.Hand

end
-- ==== Proof.KI.Body0.lean ====
/-
  The first kernel region: a row tile of layer norm followed by the projection onto the packed q | k | v columns.
  At a grid point the body reads its four input blocks whole and overwrites the output block whole with one
  payload of them; nothing is kept between points.
-/
import proofs.«421590_j85392539779833_3_alg».proof.Proof.Gen.KernelIdeal.Launch
import proofs.«421590_j85392539779833_3_alg».proof.Proof.Gen.KernelIdeal.Skeleton
import proofs.«421590_j85392539779833_3_alg».proof.Proof.Gen.KernelIdeal.Loops
import proofs.«421590_j85392539779833_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row tile of x): its staging buffer holds its block at every point, fetched there or kept from the
    point before (an unfetched point has the block index of the one before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the layer-norm scale): its staging buffer holds its block at every point, fetched there or kept from the
    point before (an unfetched point has the block index of the one before it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the layer-norm bias): its staging buffer holds its block at every point, fetched there or kept from the
    point before (an unfetched point has the block index of the one before it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the projection weights): its staging buffer holds its block at every point, fetched there or kept from the
    point before (an unfetched point has the block index of the one before it). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole output block as one rectangle. -/
abbrev rOut0 : Rect S512x3072 := Rect.unit (s := S512x3072) ![0, 0] S512x3072.size inb_S512x3072_S512x3072_0_0
abbrev rX0 : Rect S512x1024 := Rect.unit (s := S512x1024) ![0, 0] S512x1024.size inb_S512x1024_S512x1024_0_0
abbrev rP0 : Rect S1024 := Rect.unit (s := S1024) ![0] S1024.size inb_S1024_S1024_0
abbrev rW0 : Rect S1024x3072 := Rect.unit (s := S1024x3072) ![0, 0] S1024x3072.size inb_S1024x3072_S1024x3072_0_0

/-- What the body leaves in the output block: its one store, of the payload of the four blocks it loaded. -/
def out0 (x0 : Vec F S512x1024 .f32) (x1 x2 : Vec F S1024 .f32) (x3 : Vec F S1024x3072 .bf16) : Vec F S512x3072 .bf16 :=
  View.canon [⟨rOut0, k0_pay1 (View.ld x0 rX0) (View.ld x1 rP0) (View.ld x2 rP0) (View.ld x3 rW0)⟩]

/-- The one store covers the block. -/
theorem cover0 (p0 : Vec F S512x3072 .bf16) (y : S512x3072.Idx) :
    ∃ pc ∈ ([⟨rOut0, p0⟩] : List (View.Piece (Elt F) S512x3072 .bf16)), y ∈ pc.1.set :=
  View.cover_of_tiled [⟨rOut0, p0⟩] S512x3072.size (by rfl) y

set_option maxHeartbeats 4000000 in
/-- The body on whole staging buffers: the four inputs are read and left as they were, the output block ends at `out0`. -/
theorem sound_kernel0 (c : Dev nD) (E : Set ℕ) (i : grid0.Coords)
    (arg1 : Memref sig .tc .vmem S512x1024 .f32) (harg1 : arg1.IsWhole) (arg2 : Memref sig .tc .vmem S1024 .f32) (harg2 : arg2.IsWhole)
    (arg3 : Memref sig .tc .vmem S1024 .f32) (harg3 : arg3.IsWhole) (arg4 : Memref sig .tc .vmem S1024x3072 .bf16) (harg4 : arg4.IsWhole)
    (arg5 : Memref sig .tc .vmem S512x3072 .bf16) (harg5 : arg5.IsWhole)
    (x0 : Vec F S512x1024 .f32) (x1 x2 : Vec F S1024 .f32) (x3 : Vec F S1024x3072 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0 x0 x1 x2 x3)) -∗ K ⟨⟩))
      ⊢ wp frame (wpE (defs₀ (F := F)) Variants.none c none) E (cc0__ln_qkv_kernel i arg1 harg1 arg2 harg2 arg3 harg3 arg4 harg4 arg5 harg5) K := by
  simp only [cc0__ln_qkv_kernel_eq_skeleton]; unfold cc0__ln_qkv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-- The proof data of the first region on core `c`: the arrays as the region finds them; after the body each input's
    buffer at its block and the output's at `out0` of the input blocks; the scratch and the generator register ride
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The second kernel region: for a tile of 256 query rows, eight trips of a loop each compute two heads' softmax
  attention against all 2048 key and value rows and store the pair's 128 output lanes into a scratch tile; after the
  loop the scratch tile, now written everywhere, is projected by the output weights and shifted by the bias into the
  output block. The query tile and the key / value rows are two windows onto ONE array, the packed projection.
-/
import proofs.«421590_j85392539779833_3_alg».proof.Proof.Gen.KernelIdeal.Launch
import proofs.«421590_j85392539779833_3_alg».proof.Proof.Gen.KernelIdeal.Skeleton
import proofs.«421590_j85392539779833_3_alg».proof.Proof.Gen.KernelIdeal.Loops
import proofs.«421590_j85392539779833_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the tile of query rows): its staging buffer holds its block at every point, fetched there or kept from the
    point before (an unfetched point has the block index of the one before it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (all rows of the packed projection): its staging buffer holds its block at every point, fetched there or kept from the
    point before (an unfetched point has the block index of the one before it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the output weights): its staging buffer holds its block at every point, fetched there or kept from the
    point before (an unfetched point has the block index of the one before it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the output bias): its staging buffer holds its block at every point, fetched there or kept from the
    point before (an unfetched point has the block index of the one before it). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches -/

abbrev rOut1 : Rect S256x1024 := Rect.unit (s := S256x1024) ![0, 0] S256x1024.size inb_S256x1024_S256x1024_0_0
abbrev rWo1 : Rect S1024x1024 := Rect.unit (s := S1024x1024) ![0, 0] S1024x1024.size inb_S1024x1024_S1024x1024_0_0
abbrev rB1 : Rect S1024 := Rect.unit (s := S1024) ![0] S1024.size inb_S1024_S1024_0
/-- Trip `k`'s 128 query lanes, its 128 key lanes and its 128 value lanes of the packed columns, and its 128 lanes of
    the scratch. -/
abbrev rQ (k : Fin k1_t1_loop.trips) : Rect S256x3072 := Rect.unit (s := S256x3072) (k1_off1 k) S256x128.size (k1_off1_inb k)
abbrev rK (k : Fin k1_t1_loop.trips) : Rect S2048x3072 := Rect.unit (s := S2048x3072) (k1_off2 k 1024#32) S2048x128.size (k1_off2_inb k 0)
abbrev rV (k : Fin k1_t1_loop.trips) : Rect S2048x3072 := Rect.unit (s := S2048x3072) (k1_off2 k 2048#32) S2048x128.size (k1_off2_inb k 1)
abbrev rS (k : Fin k1_t1_loop.trips) : Rect S256x1024 := Rect.unit (s := S256x1024) (k1_off3 k) S256x128.size (k1_off3_inb k)

/-- The loop makes eight trips. -/
theorem trips_eq : k1_t1_loop.trips = 8 := by decide

/-! ## What the loop leaves in the scratch -/

/-- The tile trip `k` stores, from the query block `x0` and the block `x1` of all rows. -/
def tile (x0 : Vec F S256x3072 .bf16) (x1 : Vec F S2048x3072 .bf16) (k : Fin k1_t1_loop.trips) : FVec F S256x128 .bf16 :=
  k1_pay1 (k1_pay6 (View.ld x1 (rV k))) (k1_pay7 (View.ld x0 (rQ k)) (View.ld x1 (rK k)) (View.ld x1 (rV k)))
    (k1_pay8 (View.ld x0 (rQ k)) (View.ld x1 (rK k))) k1_pay9

/-- The stores of the trips before `n`, last first. -/
def pcs (x0 : Vec F S256x3072 .bf16) (x1 : Vec F S2048x3072 .bf16) : ℕ → List (View.Piece (Elt F) S256x1024 .bf16)
  | 0 => []
  | n + 1 => if h : n < k1_t1_loop.trips then ⟨rS ⟨n, h⟩, tile x0 x1 ⟨n, h⟩⟩ :: pcs x0 x1 n else pcs x0 x1 n

/-- Trip `k`'s store is among those of the trips before any later `n`. -/
theorem mem_pcs (x0 : Vec F S256x3072 .bf16) (x1 : Vec F S2048x3072 .bf16) :
    ∀ (n k : ℕ) (hk : k < n) (h : k < k1_t1_loop.trips),
      (⟨rS ⟨k, h⟩, tile x0 x1 ⟨k, h⟩⟩ : View.Piece (Elt F) S256x1024 .bf16) ∈ pcs x0 x1 n
  | n + 1, k, hk, h => by
    rw [pcs]
    by_cases hn : n < k1_t1_loop.trips
    · rw [dif_pos hn]
      rcases Nat.lt_succ_iff_lt_or_eq.mp hk with hlt | heq
      · exact List.mem_cons_of_mem _ (mem_pcs x0 x1 n k hlt h)
      · subst heq; exact List.mem_cons_self ..
    · rw [dif_neg hn]; exact mem_pcs x0 x1 n k (by omega) h

/-- The eight trips' stores cover the scratch: column `j` lies in the lanes of trip `j / 128`. -/
theorem cover_scr (x0 : Vec F S256x3072 .bf16) (x1 : Vec F S2048x3072 .bf16) (y : S256x1024.Idx) :
    ∃ p ∈ pcs x0 x1 k1_t1_loop.trips, y ∈ p.1.set := by
  have hy0 : (y 0).val < 256 := (y 0).isLt
  have hy1 : (y 1).val < 1024 := (y 1).isLt
  have ht : k1_t1_loop.trips = 8 := trips_eq
  have hk : (y 1).val / 128 < k1_t1_loop.trips := by omega
  refine ⟨_, mem_pcs x0 x1 _ _ hk hk, ?_⟩
  show y ∈ (Rect.unit (s := S256x1024) (k1_off3 ⟨(y 1).val / 128, hk⟩) S256x128.size (k1_off3_inb _)).set
  rw [Rect.mem_set_unit]
  intro a
  rw [k1_off3_eq]
  match a with
  | ⟨0, _⟩ => exact ⟨Nat.zero_le _, by show (y 0).val < 0 + 256; omega⟩
  | ⟨1, _⟩ => exact ⟨by show 128 * ((y 1).val / 128) ≤ (y 1).val; omega, by show (y 1).val < 128 * ((y 1).val / 128) + 128; omega⟩

/-- The scratch after the loop, whatever it held before. -/
def scratchAfter (x0 : Vec F S256x3072 .bf16) (x1 : Vec F S2048x3072 .bf16) : Vec F S256x1024 .bf16 :=
  View.canon (pcs x0 x1 k1_t1_loop.trips)

/-- What the body leaves in the output block: its one store, after the loop. -/
def out1 (x0 : Vec F S256x3072 .bf16) (x1 : Vec F S2048x3072 .bf16) (x2 : Vec F S1024x1024 .bf16) (x3 : Vec F S1024 .f32) : Vec F S256x1024 .f32 :=
  View.canon [⟨rOut1, k1_pay2 (View.ld (scratchAfter x0 x1) rOut1) (View.ld x2 rWo1) (View.ld x3 rB1)⟩]

theorem cover1 (p0 : Vec F S256x1024 .f32) (y : S256x1024.Idx) :
    ∃ pc ∈ ([⟨rOut1, p0⟩] : List (View.Piece (Elt F) S256x1024 .f32)), y ∈ pc.1.set :=
  View.cover_of_tiled [⟨rOut1, p0⟩] S256x1024.size (by rfl) y

section Loop

variable (c : Dev nD) (i : grid1.Coords) (arg1 : Memref sig .tc .vmem S256x3072 .bf16) (harg1 : arg1.IsWhole) (arg2 : Memref sig .tc .vmem S2048x3072 .bf16) (harg2 : arg2.IsWhole)
    (arg3 : Memref sig .tc .vmem S1024x1024 .bf16) (harg3 : arg3.IsWhole) (arg4 : Memref sig .tc .vmem S1024 .f32) (harg4 : arg4.IsWhole)
    (arg5 : Memref sig .tc .vmem S256x1024 .f32) (harg5 : arg5.IsWhole) (arg6 : Memref sig .tc .vmem S256x1024 .bf16) (harg6 : arg6.IsWhole)
    (f1 : BufTy.Contents (Elt F) arg1.view.ty) (f2 : BufTy.Contents (Elt F) arg2.view.ty)

/-- One trip's store, read off the loop's own record of it: the trip's rectangle of the scratch, and the tile computed
    from the lanes of the two buffers' contents. -/
theorem tripL_eq (k : Fin k1_t1_loop.trips) :
    tripL_k1_t1 (F := F) Variants.none c none i arg1 harg1 arg2 harg2 arg3 harg3 arg4 harg4 arg5 harg5 arg6 harg6 f1 f2 k
      = [⟨rS k, tile (arg1.view.read (Elt F) f1) (arg2.view.read (Elt F) f2) k⟩] := by
  unfold tripL_k1_t1
  unfold trip_k1_t1
  dsimp only
  unfold trip_k1_t1.sl.r trip_k1_t1.sl.r_1 trip_k1_t1.sl.r_2 tile
  simp only [View.readAt_eq_ld]

/-- The loop's record of the trips before `n` is the list of their stores. -/
theorem pb_eq : ∀ n : ℕ, pb_k1_t1 (F := F) Variants.none c none i arg1 harg1 arg2 harg2 arg3 harg3 arg4 harg4 arg5 harg5 arg6 harg6 f1 f2 n
      = pcs (arg1.view.read (Elt F) f1) (arg2.view.read (Elt F) f2) n
  | 0 => rfl
  | n + 1 => by
    rw [pb_k1_t1.eq_2, pcs]; unfold pb_k1_t1Step
    by_cases hn : n < k1_t1_loop.trips
    · rw [dif_pos hn, dif_pos hn, tripL_eq, pb_eq n]; rfl
    · rw [dif_neg hn, dif_neg hn, pb_eq n]

end Loop

/-- The output block after the body's last store, read back: `out1` of what the four input buffers hold. -/
theorem out1_read (c : Dev nD) (i : grid1.Coords) (arg1 : Memref sig .tc .vmem S256x3072 .bf16) (harg1 : arg1.IsWhole) (arg2 : Memref sig .tc .vmem S2048x3072 .bf16) (harg2 : arg2.IsWhole)
    (arg3 : Memref sig .tc .vmem S1024x1024 .bf16) (harg3 : arg3.IsWhole) (arg4 : Memref sig .tc .vmem S1024 .f32) (harg4 : arg4.IsWhole)
    (arg5 : Memref sig .tc .vmem S256x1024 .f32) (harg5 : arg5.IsWhole) (arg6 : Memref sig .tc .vmem S256x1024 .bf16) (harg6 : arg6.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) :
    arg5.view.read (Elt F) (arg5.view.writes (Elt F) f5
      [⟨rOut1, k1_pay2
          (View.readAt (Elt F) arg6.view rOut1.toLoadRect
            (arg6.view.writes (Elt F) f6 (pb_k1_t1 (F := F) Variants.none c none i arg1 harg1 arg2 harg2 arg3 harg3 arg4 harg4 arg5 harg5 arg6 harg6 f1 f2 k1_t1_loop.trips)))
          (View.readAt (Elt F) arg3.view rWo1.toLoadRect f3) (View.readAt (Elt F) arg4.view rB1.toLoadRect f4)⟩])
      = out1 (arg1.view.read (Elt F) f1) (arg2.view.read (Elt F) f2) (arg3.view.read (Elt F) f3) (arg4.view.read (Elt F) f4) := by
  rw [View.read_writes_eq_canon _ _ _ (cover1 _)]
  rw [View.readAt_eq_ld, View.readAt_eq_ld, View.readAt_eq_ld, pb_eq,
    View.read_writes_eq_canon _ _ _ (cover_scr _ _)]
  rfl

set_option maxHeartbeats 4000000 in
/-- The body on whole staging buffers and the whole scratch: the four inputs are read and left as they were, the output
    block ends at `out1` of them, the scratch at something. -/
theorem sound_kernel1 (c : Dev nD) (E : Set ℕ) (i : grid1.Coords) (arg1 : Memref sig .tc .vmem S256x3072 .bf16) (harg1 : arg1.IsWhole) (arg2 : Memref sig .tc .vmem S2048x3072 .bf16) (harg2 : arg2.IsWhole)
    (arg3 : Memref sig .tc .vmem S1024x1024 .bf16) (harg3 : arg3.IsWhole) (arg4 : Memref sig .tc .vmem S1024 .f32) (harg4 : arg4.IsWhole)
    (arg5 : Memref sig .tc .vmem S256x1024 .f32) (harg5 : arg5.IsWhole) (arg6 : Memref sig .tc .vmem S256x1024 .bf16) (harg6 : arg6.IsWhole)
    (x0 : Vec F S256x3072 .bf16) (x1 : Vec F S2048x3072 .bf16) (x2 : Vec F S1024x1024 .bf16) (x3 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)
            ∗ (∃ d, owns (c : Thread nD τ) arg6 fullShare d)) -∗ K ⟨⟩))
      ⊢ wp frame (wpE (defs₀ (F := F)) Variants.none c none) E (cc1__kernel i arg1 harg1 arg2 harg2 arg3 harg3 arg4 harg4 arg5 harg5 arg6 harg6) K := by
  simp only [cc1__kernel_eq_skeleton]; unfold cc1__kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact out1_read c i arg1 harg1 arg2 harg2 arg3 harg3 arg4 harg4 arg5 harg5 arg6 harg6 f1 f2 f3 f4 f5 f6
  iexists _; iexists _; isplitr
  swap; · iexact H6
  ipureintro; rfl

/-- The proof data of the second region on core `c`: the arrays as the region finds them; after the body each input's
    buffer at its block and the output's at `out1` of the input blocks; the scratch and the generator register ride in the
    invariant at anything; nothing owed. The query-tile window and the all-rows window read one array: each holds half of
    it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The region's invariant with the scratch as a buffer owned at some contents, beside the other scoped buffers and the
    generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
          ∗ (∃ d, owns (c : Thread nD τ) (Memref.whole cc1_scratch0) fullShare d)) ∗ (∃ r, prngReg c r)) := by
  unfold Pipeline.ΦA; rw [scopedRest1_eq]; simp only [owns_whole]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks and the invariant lends the scratch, so the body's
    triple applies; the scratch goes back into the invariant at whatever it now holds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, PhiA1_eq]
  iintro ⟨⟨⟨Hr0, Hr1, Hr2, Hr3, Hr4, Hr5, Hr6, HS⟩, Hg⟩, Ho, ⟨%d0, H0⟩, ⟨%d1, H1⟩, ⟨%d2, H2⟩, ⟨%d3, H3⟩, ⟨%d4, H4⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [Hr0 Hr1 Hr2 Hr3 Hr4 Hr5 Hr6 HS Hg]
  · isplitr [Hg]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact HS
    iexact Hg
  isplitl [Ho]; · iexact Ho
  isplitl [H0]; · iexact H0
  isplitl [H1]; · iexact H1
  isplitl [H2]; · iexact H2
  isplitl [H3]; · iexact H3
  iexact H4

/-- The body obligation of the second region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as segments: the host stretch that narrows the two weight matrices, the first region, the second
  region. Between segments core `c` holds every unscoped buffer at named contents: at launch the memory's; after the host
  stretch the two narrowed weights as well; after the first region the packed projection at what its write-backs leave;
  after the second the result at what its write-backs leave. No segment writes an argument.
-/
import proofs.«421590_j85392539779833_3_alg».proof.Proof.KI.Body0
import proofs.«421590_j85392539779833_3_alg».proof.Proof.KI.Body1
import proofs.«421590_j85392539779833_3_alg».proof.Proof.Gen.KernelIdeal.Regions
import Idealize.ShloMosaic.Lib.Pipeline.RegionsLoop
import Idealize.ShloMosaic.Lib.Pipeline.FrameSuffix
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the segment boundaries -/

/-- At launch. -/
abbrev W0 (c : Dev nD) : Valuation τ sig (Elt F) := fun b => m (c, b)
/-- After the host stretch: the first region's entry. -/
abbrev W1 (c : Dev nD) : Valuation τ sig (Elt F) := StableHlo.after hostOps0 (W0 m c)
abbrev E0 : (c : Dev nD) → (b : Ref sig .tc) → Buf (Elt F) ((c : Thread nD τ).loc b) := fun c b => W1 m c b
/-- The packed projection as the first region leaves it: its array after the write-backs of all four points. -/
def qkvArr (c : Dev nD) : Buf (Elt F) ((c : Thread nD τ).loc main_v2) := (dat0 (E0 m) c).arrAt 4 cfg0.N
/-- After the first region: the second region's entry. -/
def W2 (c : Dev nD) : Valuation τ sig (Elt F) := Function.update (W1 m c) main_v2 (qkvArr m c)
abbrev E1 : (c : Dev nD) → (b : Ref sig .tc) → Buf (Elt F) ((c : Thread nD τ).loc b) := fun c b => W2 m c b
/-- The result as the second region leaves it: its array after the write-backs of all eight points. -/
def resArr (c : Dev nD) : Buf (Elt F) ((c : Thread nD τ).loc main_v3) := (dat1 (E1 m) c).arrAt 4 cfg1.N
/-- After the second region: what the program ends with. -/
def W3 (c : Dev nD) : Valuation τ sig (Elt F) := Function.update (W2 m c) main_v3 (resArr m c)
abbrev E2 : (c : Dev nD) → (b : Ref sig .tc) → Buf (Elt F) ((c : Thread nD τ).loc b) := fun c b => W3 m c b

theorem W2_v2 (c : Dev nD) : W2 m c main_v2 = qkvArr m c := by unfold W2; exact Function.update_self ..
theorem W2_of_ne (c : Dev nD) (b : Ref sig .tc) (h : b ≠ main_v2) : W2 m c b = W1 m c b := by
  unfold W2; exact Function.update_of_ne (StableHlo.devRef_ne_of_ne h) ..
theorem W3_v3 (c : Dev nD) : W3 m c main_v3 = resArr m c := by unfold W3; exact Function.update_self ..
theorem W3_of_ne (c : Dev nD) (b : Ref sig .tc) (h : b ≠ main_v3) : W3 m c b = W2 m c b := by
  unfold W3; exact Function.update_of_ne (StableHlo.devRef_ne_of_ne h) ..

/-- An argument's buffer is never written: at the end it holds what the launch memory held. -/
theorem W3_arg (c : Dev nD) (b : Ref sig .tc) (h3 : b ≠ main_v3) (h2 : b ≠ main_v2) (h01 : b ∉ hostOps0_W) :
    W3 m c b = m ((c : Thread nD τ).loc b) :=
  (W3_of_ne m c b h3).trans <| (W2_of_ne m c b h2).trans <| (V1_of m c b h01).trans rfl

/-! ## The proof data of both regions -/

/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## The first region -/

/-- At the first region's exit each of its arrays holds what the pipeline leaves: the four inputs what they held, the
    output its write-backs. -/
theorem hF0 (c : Dev nD) (w : Fin cfg0.W) : (dat0 (E0 m) c).arrAt w cfg0.N = E1 m c (Pipeline.arrRef spec0 w) :=
  match w with
  | ⟨0, _⟩ => ((dat0 (E0 m) c).arrAt_in 0 rfl _).trans ((A_eq0 (E0 m) c 0).trans (W2_of_ne m c main_arg0 (by decide)).symm)
  | ⟨1, _⟩ => ((dat0 (E0 m) c).arrAt_in 1 rfl _).trans ((A_eq0 (E0 m) c 1).trans (W2_of_ne m c main_arg1 (by decide)).symm)
  | ⟨2, _⟩ => ((dat0 (E0 m) c).arrAt_in 2 rfl _).trans ((A_eq0 (E0 m) c 2).trans (W2_of_ne m c main_arg2 (by decide)).symm)
  | ⟨3, _⟩ => ((dat0 (E0 m) c).arrAt_in 3 rfl _).trans ((A_eq0 (E0 m) c 3).trans (W2_of_ne m c main_v0 (by decide)).symm)
  | ⟨4, _⟩ => (W2_v2 m c).symm
/-- Every other buffer holds what it held at entry. -/
theorem hrest0 (c : Dev nD) : ∀ b, b ∉ Finset.univ.image (Pipeline.arrRef spec0) → E1 m c b = E0 m c b :=
  fun b hb => W2_of_ne m c b fun e => hb (Finset.mem_image.mpr ⟨4, Finset.mem_univ _, e.symm⟩)

set_option backward.isDefEq.respectTransparency.types false in
/-- The first region as a segment: entered from every unscoped buffer at `W1`, left at `W2`. Its five arrays are taken
    out of the unscoped buffers and put back at the exit contents; the generator register passes through the invariant;
    nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: two reading windows on one array -/

/-- The buffers behind the second region's arrays, one by one: the packed projection, the narrowed output weights, the
    output bias, the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v1) ↦{fullShare} V main_v1)
          ∗ (((c : Thread nD τ).loc main_arg5) ↦{fullShare} V main_arg5) ∗ (((c : Thread nD τ).loc main_v3) ↦{fullShare} V main_v3)) := by
  unfold Pipeline.arrBufs
  exact bigSep_eq_bigSepL_of_eq [main_v2, main_v1, main_arg5, main_v3] (by decide) (by decide) _

/-- The second region's arrays at contents `G`, window by window: the query-tile window and the all-rows window each
    hold half of the packed projection; the other three hold their arrays whole. -/
theorem arrays1_eq (c : Dev nD) (V : (c : Dev nD) → (b : Ref sig .tc) → Buf (Elt F) ((c : Thread nD τ).loc b))
    (G : (b : Ref sig .tc) → Buf (Elt F) ((c : Thread nD τ).loc b)) :
    ((dat1 V c).arrays (fun w => G (Pipeline.arrRef spec1 w)) : sProp 𝕄)
      = iprop((((c : Thread nD τ).loc main_v2) ↦{fullShare.left} G main_v2) ∗ (((c : Thread nD τ).loc main_v2) ↦{fullShare.right} G main_v2)
          ∗ (((c : Thread nD τ).loc main_v1) ↦{fullShare} G main_v1) ∗ (((c : Thread nD τ).loc main_arg5) ↦{fullShare} G main_arg5)
          ∗ (((c : Thread nD τ).loc main_v3) ↦{fullShare} G main_v3)) := by
  unfold Pipeline.Dat.arrays
  rw [bigSep_W1]
  simp only [View.set_whole]
  rfl

/-- Entering: the packed projection's buffer, whole, is dealt to its two reading windows half and half. -/
theorem hsplit1 (c : Dev nD) (V : (c : Dev nD) → (b : Ref sig .tc) → Buf (Elt F) ((c : Thread nD τ).loc b))
    (G : (b : Ref sig .tc) → Buf (Elt F) ((c : Thread nD τ).loc b)) :
    (Pipeline.arrBufs (Ix := Unit) (Name := ℕ) (U := UR sig nD τ) (Lvl := ℕ) spec1 c G : sProp 𝕄)
      ⊢ (dat1 V c).arrays (fun w => G (Pipeline.arrRef spec1 w)) := by
  rw [arrBufs1_eq, arrays1_eq]
  have hsh : ((((c : Thread nD τ).loc main_v2) ↦{fullShare} G main_v2) : sProp 𝕄)
      ⊢ iprop((((c : Thread nD τ).loc main_v2) ↦{fullShare.left} G main_v2) ∗ (((c : Thread nD τ).loc main_v2) ↦{fullShare.right} G main_v2)) :=
    (pointsTo_share (PosShare.mem_left_op_right fullShare)).1
  iintro ⟨H2, H1, H5, H3⟩
  ihave H2' := hsh $$ H2
  icases H2' with ⟨H2l, H2r⟩
  isplitl [H2l]; · iexact H2l
  isplitl [H2r]; · iexact H2r
  isplitl [H1]; · iexact H1
  isplitl [H5]; · iexact H5
  iexact H3

/-- Leaving: the two halves are one whole buffer again. -/
theorem hjoin1 (c : Dev nD) (V : (c : Dev nD) → (b : Ref sig .tc) → Buf (Elt F) ((c : Thread nD τ).loc b))
    (G : (b : Ref sig .tc) → Buf (Elt F) ((c : Thread nD τ).loc b)) :
    ((dat1 V c).arrays (fun w => G (Pipeline.arrRef spec1 w)) : sProp 𝕄)
      ⊢ Pipeline.arrBufs (Ix := Unit) (Name := ℕ) (U := UR sig nD τ) (Lvl := ℕ) spec1 c G := by
  rw [arrBufs1_eq, arrays1_eq]
  have hsh : iprop((((c : Thread nD τ).loc main_v2) ↦{fullShare.left} G main_v2) ∗ (((c : Thread nD τ).loc main_v2) ↦{fullShare.right} G main_v2))
      ⊢ ((((c : Thread nD τ).loc main_v2) ↦{fullShare} G main_v2) : sProp 𝕄) :=
    (pointsTo_share (PosShare.mem_left_op_right fullShare)).2
  iintro ⟨H2l, H2r, H1, H5, H3⟩
  ihave H2 := hsh $$ [H2l H2r]
  · isplitl [H2l]; · iexact H2l
    iexact H2r
  isplitl [H2]; · iexact H2
  isplitl [H1]; · iexact H1
  isplitl [H5]; · iexact H5
  iexact H3

/-- At the second region's exit each of its arrays holds what the pipeline leaves: the four inputs what they held, the
    output its write-backs. -/
theorem hF1 (c : Dev nD) (w : Fin cfg1.W) : (dat1 (E1 m) c).arrAt w cfg1.N = E2 m c (Pipeline.arrRef spec1 w) :=
  match w with
  | ⟨0, _⟩ => ((dat1 (E1 m) c).arrAt_in 0 rfl _).trans ((A_eq1 (E1 m) c 0).trans (W3_of_ne m c main_v2 (by decide)).symm)
  | ⟨1, _⟩ => ((dat1 (E1 m) c).arrAt_in 1 rfl _).trans ((A_eq1 (E1 m) c 1).trans (W3_of_ne m c main_v2 (by decide)).symm)
  | ⟨2, _⟩ => ((dat1 (E1 m) c).arrAt_in 2 rfl _).trans ((A_eq1 (E1 m) c 2).trans (W3_of_ne m c main_v1 (by decide)).symm)
  | ⟨3, _⟩ => ((dat1 (E1 m) c).arrAt_in 3 rfl _).trans ((A_eq1 (E1 m) c 3).trans (W3_of_ne m c main_arg5 (by decide)).symm)
  | ⟨4, _⟩ => (W3_v3 m c).symm

/-- The buffers that are no array of the second region hold at its exit what they held at its entry. -/
theorem rest1_eq (c : Dev nD) :
    (Pipeline.unscopedRest (Ix := Unit) (Name := ℕ) (U := UR sig nD τ) (Lvl := ℕ) spec1 c (E1 m c) : sProp 𝕄)
      = Pipeline.unscopedRest (Ix := Unit) (Name := ℕ) (U := UR sig nD τ) (Lvl := ℕ) spec1 c (E2 m c) := by
  rw [unscopedRest1_eq, unscopedRest1_eq]
  rw [show E2 m c main_arg0 = E1 m c main_arg0 from W3_of_ne m c main_arg0 (by decide),
    show E2 m c main_arg1 = E1 m c main_arg1 from W3_of_ne m c main_arg1 (by decide),
    show E2 m c main_arg2 = E1 m c main_arg2 from W3_of_ne m c main_arg2 (by decide),
    show E2 m c main_arg3 = E1 m c main_arg3 from W3_of_ne m c main_arg3 (by decide),
    show E2 m c main_arg4 = E1 m c main_arg4 from W3_of_ne m c main_arg4 (by decide),
    show E2 m c main_v0 = E1 m c main_v0 from W3_of_ne m c main_v0 (by decide)]

/-- From every unscoped buffer at the entry contents: the region's arrays at those contents, and the rest. -/
theorem entry1 (c : Dev nD) :
    (StableHlo.held (c : Thread nD τ) (Pipeline.ucRefs τ sig) (W2 m c) : sProp 𝕄)
      ⊢ iprop((pdats m 1 c).arrays ((pdats m 1 c).arrAt · 0)
          ∗ Pipeline.unscopedRest (Ix := Unit) (Name := ℕ) (U := UR sig nD τ) (Lvl := ℕ) spec1 c (E1 m c)) := by
  rw [← Pipeline.unscopedBufs_held c (W2 m c), Pipeline.unscopedBufs_split₀ cfgs 1 winFacts₀1.arr_unscoped c]
  exact sep_mono (hsplit1 c (E1 m) (E1 m c)) .rfl

/-- From the region's arrays at what the pipeline leaves and the rest: every unscoped buffer at the exit contents. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (E1 m c))
      ⊢ (StableHlo.held (c : Thread nD τ) (Pipeline.ucRefs τ sig) (W3 m c) : sProp 𝕄) := by
  rw [← Pipeline.unscopedBufs_held c (W3 m c), Pipeline.unscopedBufs_split₀ cfgs 1 winFacts₀1.arr_unscoped c, rest1_eq m c,
    show ((pdats m 1 c).arrAt · cfg1.N) = fun w => E2 m c (Pipeline.arrRef spec1 w) from funext (hF1 m c)]
  exact sep_mono (hjoin1 c (E1 m) (E2 m c)) .rfl

set_option backward.isDefEq.respectTransparency.types false in
/-- The second region as a segment: entered from every unscoped buffer at `W2`, left at `W3`. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The last thread state beside the core owing nothing. -/
theorem last_chain (c : Dev nD) :
    iprop(StableHlo.held (c : Thread nD τ) (Pipeline.ucRefs τ sig) (W3 m c) ∗ R c)
      ⊢ (iprop(iprop(StableHlo.held (c : Thread nD τ) (Pipeline.ucRefs τ sig) (W3 m c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- The host stretch as a segment from the launch contents. -/
abbrev hseg0 : HostSeg (Name := ℕ) (U := UR sig nD τ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The program's three segments in order. -/
abbrev segs : List (Seg (pcfgs (F := F)) adm (pdats m) () defs₀ 𝒱₀ L lv) :=
  [.host (hseg0 m), .region (reg0 m), .region (reg1 m)]

theorem main_run (c : Dev nD) : main (F := F) c = Seg.run (segs m) := (main_chain c).trans (by chain_rfl)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting; at the end the result buffer holds `resArr` — the second region's output array after all its
    write-backs — and every argument what it held at launch. -/
theorem run_main (ρ : Dev nD → PrngReg) :
    θ_run defs (onTc (τ := τ) (main (F := F))) ⟨m, fun _ => 0, ρ⟩ (fun r => ∀ c : Dev nD,
      r.2.mem ((c.tc : Thread nD τ).loc main_v3) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c => last_chain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_v3 m c),
       (h c _ (mem_uc main_arg0 (by decide))).trans (W3_arg m c main_arg0 (by decide) (by decide) (by decide)),
       (h c _ (mem_uc main_arg1 (by decide))).trans (W3_arg m c main_arg1 (by decide) (by decide) (by decide)),
       (h c _ (mem_uc main_arg2 (by decide))).trans (W3_arg m c main_arg2 (by decide) (by decide) (by decide)),
       (h c _ (mem_uc main_arg3 (by decide))).trans (W3_arg m c main_arg3 (by decide) (by decide) (by decide)),
       (h c _ (mem_uc main_arg4 (by decide))).trans (W3_arg m c main_arg4 (by decide) (by decide) (by decide)),
       (h c _ (mem_uc main_arg5 (by decide))).trans (W3_arg m c main_arg5 (by decide) (by decide) (by decide))⟩)

end Cert.KernelIdeal.Hand

end
-- ==== Proof.Spec.lean ====
/-
  The function both programs compute, over the extended reals, in coordinates.

  A row of x is normalised (mean and variance over its 1024 entries, the variance shifted by the literal 1e-6 before the
  inverse square root), scaled and shifted entrywise, and projected onto 3072 packed columns: columns 0..1023 are the
  queries, 1024..2047 the keys, 2048..3071 the values, and within each third head h owns columns 64h..64h+63.
  For head h and query row i the scores against all 2048 key rows are the 64-term dot products times 1/32; they are
  shifted by their maximum, exponentiated and divided by the sum of the exponentials; the head's output is that row
  of weights against the value rows. The 16 head outputs side by side form a row of 1024 entries, which is projected by
  the output weights and shifted by the output bias.
-/
import Idealize.ShloMosaic.PureOps.Ideal
import Mathlib.Algebra.BigOperators.Group.Finset.Basic
import Mathlib.Data.Finset.Fold

noncomputable section

namespace Cert.Spec

open Idealize.ShloMosaic

/-- The literal 1024, the row length the mean divides by. -/
abbrev cN : EReal := Ideal.ofBits .f32 0x44800000#32
/-- The literal the variance is shifted by (the float nearest 1e-6). -/
abbrev cEps : EReal := Ideal.ofBits .f32 0x358637BD#32
/-- The literal 1/32 the scores are scaled by. -/
abbrev cScale : EReal := Ideal.ofBits .f32 0x3D000000#32
/-- The literal -∞ a maximum starts from. -/
abbrev cNegInf : EReal := Ideal.ofBits .f32 0xFF800000#32

/-- The mean of a row of 1024 entries. -/
def mean (x : Fin 1024 → EReal) : EReal := Ideal.div (∑ k : Fin 1024, x k) cN

/-- A row after layer norm, scale `g` and shift `b`. -/
def lnRow (x g b : Fin 1024 → EReal) (k : Fin 1024) : EReal :=
  (x k - mean x) * Ideal.rsqrt (mean (fun k' => (x k' - mean x) * (x k' - mean x)) + cEps) * g k + b k

/-- The packed projection: row `r` of the normalised x against column `j` of the weights. -/
def qkv (X : Fin 2048 → Fin 1024 → EReal) (g b : Fin 1024 → EReal) (W : Fin 1024 → Fin 3072 → EReal)
    (r : Fin 2048) (j : Fin 3072) : EReal :=
  ∑ k : Fin 1024, lnRow (X r) g b k * W k j

/-- One query's scaled scores against the key rows. -/
def scores (q : Fin 64 → EReal) (K : Fin 2048 → Fin 64 → EReal) (j : Fin 2048) : EReal :=
  (∑ d : Fin 64, q d * K j d) * cScale

/-- The maximum of a row of scores, from -∞. -/
def rowMax (s : Fin 2048 → EReal) : EReal := (Finset.univ : Finset (Fin 2048)).fold max cNegInf s

/-- The exponentials of a row of scores shifted by its maximum. -/
def expRow (s : Fin 2048 → EReal) (j : Fin 2048) : EReal := Ideal.exp (s j - rowMax s)

/-- The softmax weights of a row of scores. -/
def softRow (s : Fin 2048 → EReal) (j : Fin 2048) : EReal := Ideal.div (expRow s j) (∑ j' : Fin 2048, expRow s j')

/-- One head's output for one query: the softmax weights of its scores against the value rows, at coordinate `d`. -/
def headOut (q : Fin 64 → EReal) (K Vv : Fin 2048 → Fin 64 → EReal) (d : Fin 64) : EReal :=
  ∑ j : Fin 2048, softRow (scores q K) j * Vv j d

/-- Column `64 * h + d` of the third of the packed columns that starts at `base` (0, 1024 or 2048). -/
def col (base : Nat) (hb : base + 1024 ≤ 3072) (h : Fin 16) (d : Fin 64) : Fin 3072 :=
  ⟨base + (64 * h.val + d.val), by have := h.isLt; have := d.isLt; omega⟩

/-- The head a column of the concatenated head outputs belongs to, and its coordinate inside the head. -/
def headOf (e : Fin 1024) : Fin 16 := ⟨e.val / 64, by have := e.isLt; omega⟩
def dimOf (e : Fin 1024) : Fin 64 := ⟨e.val % 64, Nat.mod_lt _ (by norm_num)⟩

/-- The concatenated head outputs, from the packed projection `P`: entry (r, e) is head `e / 64`'s output for
    query row `r` at coordinate `e % 64`. -/
def attn (P : Fin 2048 → Fin 3072 → EReal) (r : Fin 2048) (e : Fin 1024) : EReal :=
  headOut (fun d => P r (col 0 (by norm_num) (headOf e) d))
    (fun j d => P j (col 1024 (by norm_num) (headOf e) d))
    (fun j d => P j (col 2048 (by norm_num) (headOf e) d)) (dimOf e)

/-- The out-projection of a row of concatenated head outputs, plus the bias. -/
def outProj (A : Fin 1024 → EReal) (Wo : Fin 1024 → Fin 1024 → EReal) (bo : Fin 1024 → EReal) (c : Fin 1024) : EReal :=
  (∑ e : Fin 1024, A e * Wo e c) + bo c

/-- The whole function: entry (r, c) of the result from the six arguments. -/
def result (X : Fin 2048 → Fin 1024 → EReal) (g b : Fin 1024 → EReal) (W : Fin 1024 → Fin 3072 → EReal)
    (Wo : Fin 1024 → Fin 1024 → EReal) (bo : Fin 1024 → EReal) (r : Fin 2048) (c : Fin 1024) : EReal :=
  outProj (attn (qkv X g b W) r) Wo bo c

end Cert.Spec

end
-- ==== Proof.KI.Pay0.lean ====
/-
  The first kernel's payload at an entry: row p of the block of x is normalised, scaled and shifted, and its 1024
  entries are summed against column j of the weights.
-/
import proofs.«421590_j85392539779833_3_alg».proof.Proof.Gen.KernelIdeal.Skeleton
import proofs.«421590_j85392539779833_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx

/-! ## Layout steps read at an entry -/

/-- A vector of 512 entries laid out as one column reads its entry p at (p, u), whatever the unit coordinate u. -/
theorem colCast_apply {α : Type} (v : S512.Idx → α) (p : Fin 512) (u : Fin 1) :
    shapeCast S512x1 v shapeCasts_S512_S512x1 (ix2 p u) = v (ix1 p) :=
  shapeCast_apply v shapeCasts_S512_S512x1 _ _ (by
    have hu : u.val = 0 := by omega
    rw [Shape.rowMajor_val_two, Shape.rowMajor_val_one]
    show p.val = p.val * 1 + u.val
    rw [hu, Nat.mul_one, Nat.add_zero])

/-- One column repeated over the 1024 columns reads, at (p, k), the column's entry p. -/
theorem colBcast_apply {α : Type} (v : S512x1.Idx → α) (p : Fin 512) (k : Fin 1024) :
    broadcastTo S512x1024 v broadcasts_S512x1_S512x1024 (ix2 p k) = v (ix2 p (0 : Fin 1)) := by
  refine broadcastTo_apply v broadcasts_S512x1_S512x1024 (ix2 p k) (ix2 p (0 : Fin 1)) fun ax => ?_
  match ax with
  | ⟨0, _⟩ =>
    show p.val = if (512 : Nat) = 1 then 0 else p.val
    rw [if_neg (by decide)]
  | ⟨1, _⟩ =>
    show 0 = if (1 : Nat) = 1 then 0 else k.val
    rw [if_pos rfl]

/-- A vector of 1024 entries laid out as one row and repeated over the 512 rows reads its entry k at (p, k). -/
theorem rowBcast_apply (g : FVec Ideal S1024 .f32) (p : Fin 512) (k : Fin 1024) :
    broadcastTo S512x1024 (shapeCast S1x1024 g shapeCasts_S1024_S1x1024) broadcasts_S1x1024_S512x1024 (ix2 p k) = g (ix1 k) :=
  (broadcastTo_1b_ab_apply _ broadcasts_S1x1024_S512x1024 p k).trans
    (shapeCast_a_1a_apply g shapeCasts_S1024_S1x1024 (0 : Fin 1) k)

/-! ## The row statistics -/

/-- The sum along a row: entry p of the reduction over the second axis is the sum of row p. -/
theorem rowSum_apply (x : FVec Ideal S512x1024 .f32) (p : Fin 512) :
    multiReduction (F := Ideal) .add [1] S512 x 0x00000000#32 reduces_S512x1024_S512 (.inl rfl) rfl (ix1 p)
      = ∑ k : Fin 1024, x (ix2 p k) := by
  refine (Ideal.multiReduction_add_single x 0x00000000#32 reduces_S512x1024_S512 (.inl rfl) rfl (ix1 p)).trans ?_
  refine Finset.sum_congr rfl fun k _ => congrArg x (funext fun ax => Fin.ext ?_)
  match ax with
  | ⟨0, _⟩ => rfl
  | ⟨1, _⟩ => rfl

/-- The column of row means: the row sums, as a column, divided by the literal 1024. -/
theorem meanCol_apply (x : FVec Ideal S512x1024 .f32) (p : Fin 512) (u : Fin 1) :
    divf (shapeCast S512x1 (multiReduction (F := Ideal) .add [1] S512 x 0x00000000#32 reduces_S512x1024_S512 (.inl rfl) rfl) shapeCasts_S512_S512x1) (broadcast S512x1 (Scalar.ofBits (F := Ideal) .f32 0x44800000#32)) (ix2 p u)
      = Cert.Spec.mean (fun k => x (ix2 p k)) := by
  refine (divf_apply _ _ _).trans ?_
  rw [colCast_apply, rowSum_apply]
  rfl

/-- A block with each row's mean taken off, at (p, k). -/
theorem centred_apply (x : FVec Ideal S512x1024 .f32) (p : Fin 512) (k : Fin 1024) :
    subf x (broadcastTo S512x1024 (divf (shapeCast S512x1 (multiReduction (F := Ideal) .add [1] S512 x 0x00000000#32 reduces_S512x1024_S512 (.inl rfl) rfl) shapeCasts_S512_S512x1) (broadcast S512x1 (Scalar.ofBits (F := Ideal) .f32 0x44800000#32))) broadcasts_S512x1_S512x1024) (ix2 p k)
      = x (ix2 p k) - Cert.Spec.mean (fun k => x (ix2 p k)) :=
  (subf_apply _ _ _).trans (congrArg (x (ix2 p k) - ·) ((colBcast_apply _ p k).trans (meanCol_apply x p 0)))

/-- The inverse square root is taken entry by entry. -/
theorem rsqrt_apply {s : Shape} {φ : FTy} (a : FVec Ideal s φ) (i : s.Idx) : rsqrt a i = Ideal.rsqrt (a i) := rfl

/-- The column of inverse standard deviations of a block y (already centred): the inverse square root of the mean of
    the squares of row p shifted by the literal 1e-6. -/
theorem invStd_apply (y : FVec Ideal S512x1024 .f32) (p : Fin 512) (u : Fin 1) :
    rsqrt (addf (divf (shapeCast S512x1 (multiReduction (F := Ideal) .add [1] S512 (mulf y y) 0x00000000#32 reduces_S512x1024_S512 (.inl rfl) rfl) shapeCasts_S512_S512x1) (broadcast S512x1 (Scalar.ofBits (F := Ideal) .f32 0x44800000#32)))
        (broadcast S512x1 (Scalar.ofBits (F := Ideal) .f32 0x358637BD#32))) (ix2 p u)
      = Ideal.rsqrt (Cert.Spec.mean (fun k => y (ix2 p k) * y (ix2 p k)) + Cert.Spec.cEps) := by
  refine (rsqrt_apply _ _).trans (congrArg Ideal.rsqrt ?_)
  refine (addf_apply _ _ _).trans ?_
  rw [meanCol_apply]
  rfl

/-! ## The operand indices of the product

At output entry `i` and contraction coordinate `q` the left operand is read at row `i 0`, column `q`, and the right
operand at row `q`, column `i 1`. One lemma per axis. -/

theorem lhs_qkv_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

theorem lhs_qkv_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q

theorem rhs_qkv_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q

theorem rhs_qkv_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The product into a zero accumulator at entry (p, j): row p of the left operand against column j of the right. -/
theorem qkvMatmul_apply (a : FVec Ideal S512x1024 .bf16) (w : FVec Ideal S1024x3072 .bf16) (p : Fin 512) (j : Fin 3072) :
    matmul dot_S512x1024_S1024x3072_S512x3072_1_0_0_1_n_n none a w (constant (F := Ideal) S512x3072 .f32 0x00000000#32) (ix2 p j)
      = ∑ k : Fin 1024, a (ix2 p k) * w (ix2 k j) := by
  simp only [matmul]
  rw [Ideal.matmul_constant_zero_apply,
    ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p j)
      ((contrEquiv1 dot_S512x1024_S1024x3072_S512x3072_1_0_0_1_n_n 1024 rfl rfl).symm k) = ix2 p k :=
    funext fun ax => Fin.ext (by
      match ax with
      | ⟨0, _⟩ => exact lhs_qkv_0 _ _
      | ⟨1, _⟩ => exact (lhs_qkv_1 _ _).trans hk)
  have er : dot_S512x1024_S1024x3072_S512x3072_1_0_0_1_n_n.rhsIdx (ix2 p j)
      ((contrEquiv1 dot_S512x1024_S1024x3072_S512x3072_1_0_0_1_n_n 1024 rfl rfl).symm k) = ix2 k j :=
    funext fun ax => Fin.ext (by
      match ax with
      | ⟨0, _⟩ => exact (rhs_qkv_0 _ _).trans hk
      | ⟨1, _⟩ => exact rhs_qkv_1 _ _)
  rw [el, er]

/-- Entry (p, j) of the stored payload, from the four loaded blocks. -/
theorem pay0_apply (v0 : Vec Ideal S512x1024 .f32) (v17 v21 : Vec Ideal S1024 .f32) (v26 : Vec Ideal S1024x3072 .bf16)
    (p : Fin 512) (j : Fin 3072) :
    k0_pay1 (F := Ideal) v0 v17 v21 v26 (ix2 p j)
      = ∑ k : Fin 1024, Cert.Spec.lnRow (fun k => v0 (ix2 p k)) (fun k => v17 (ix1 k)) (fun k => v21 (ix1 k)) k * v26 (ix2 k j) := by
  unfold k0_pay1
  dsimp only
  rw [truncf_apply, shapeCast_self]
  refine (qkvMatmul_apply _ _ p j).trans ?_
  refine Finset.sum_congr rfl fun k _ => congrArg (· * v26 (ix2 k j)) ?_
  unfold Cert.Spec.lnRow
  rw [truncf_apply]
  refine (addf_apply _ _ _).trans ?_
  rw [rowBcast_apply]
  refine congrArg (· + v21 (ix1 k)) ?_
  refine (mulf_apply _ _ _).trans ?_
  rw [rowBcast_apply]
  refine congrArg (· * v17 (ix1 k)) ?_
  refine (mulf_apply _ _ _).trans ?_
  rw [colBcast_apply, invStd_apply]
  simp only [centred_apply v0]

end Cert.KernelIdeal.Pay

end
-- ==== Proof.KI.Value0.lean ====
/-
  The first region's output array after all four points: entry (r, j) is row r of x normalised, scaled and shifted,
  summed against column j of the weights the region was entered with. Point t writes rows 512 t … 512 t + 511, so the
  four blocks cover the array, and each is that function's block.
-/
import proofs.«421590_j85392539779833_3_alg».proof.Proof.KI.Body0
import proofs.«421590_j85392539779833_3_alg».proof.Proof.KI.Pay0
import proofs.«421590_j85392539779833_3_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand.Proj

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-- The zero offsets of a whole rank-2 block, and of a whole rank-1 block. -/
theorem zeroOff2 : (![0, 0] : Fin 2 → Nat) = fun _ => 0 := funext fun a => by fin_cases a <;> rfl
theorem zeroOff1 : (![0] : Fin 1 → Nat) = fun _ => 0 := funext fun a => by fin_cases a; rfl

/-- The packed projection as one function of the whole arrays the region is entered with, entry by entry. -/
abbrev qkvOf (V : (c : Dev nD) → (b : Ref sig .tc) → Buf (Elt Ideal) ((c : Thread nD τ).loc b)) (c : Dev nD) :
    S2048x3072.Idx → Elt Ideal .bf16 := fun i =>
  Cert.Spec.qkv (fun r k => V c main_arg0 (ix2 r k)) (fun k => V c main_arg1 (ix1 k)) (fun k => V c main_arg2 (ix1 k))
    (fun k j => V c main_v0 (ix2 k j)) (i 0) (i 1)

/-- One entry of a block from the four loaded blocks: when row p of the block of x is row r of x, and the scale, the bias
    and the weights are read whole, entry (p, q) of the payload is entry (r, q) of the packed projection. -/
theorem block_entry (x0 : Vec Ideal S512x1024 .f32) (x1 x2 : Vec Ideal S1024 .f32) (x3 : Vec Ideal S1024x3072 .bf16)
    (X : Fin 2048 → Fin 1024 → EReal) (g b : Fin 1024 → EReal) (W : Fin 1024 → Fin 3072 → EReal)
    (r : Fin 2048) (p : Fin 512) (q : Fin 3072)
    (h0 : ∀ k, x0 (ix2 p k) = X r k) (h1 : ∀ k, x1 (ix1 k) = g k) (h2 : ∀ k, x2 (ix1 k) = b k)
    (h3 : ∀ k j, x3 (ix2 k j) = W k j) :
    k0_pay1 (F := Ideal) x0 x1 x2 x3 (ix2 p q) = Cert.Spec.qkv X g b W r q := by
  rw [Cert.KernelIdeal.Pay.pay0_apply]
  unfold Cert.Spec.qkv
  simp only [h0, h1, h2, h3]

/-- The block indices at grid point t: the rows of x and of the output move with the point, the scale, the bias and
    the weights stay. -/
theorem blockIdx : ∀ t : Fin cfg0.N,
    win0_0.index t (0 : Fin 2) = t.val ∧ win0_0.index t (1 : Fin 2) = 0
    ∧ win0_1.index t (0 : Fin 1) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the packed projection. -/
theorem flushed_eq (V : (c : Dev nD) → (b : Ref sig .tc) → Buf (Elt Ideal) ((c : Thread nD τ).loc b)) (c : Dev nD)
    (t : Fin cfg0.N) :
    (dat0 (F := Ideal) V c).flushed 4 t = ((cfg0.win 4).blk t).view.read (Elt Ideal) (qkvOf V c) := by
  show (cfg0.win 4).cut (grid0.coords t) ((dat0 (F := Ideal) V c).after 4 t) = _
  rw [after0_4]
  unfold out0
  rw [View.canon_unit_zero zeroOff2]
  simp only [View.ld_unit_zero (S := S512x1024) zeroOff2, View.ld_unit_zero (S := S1024) zeroOff1,
    View.ld_unit_zero (S := S1024x3072) zeroOff2]
  obtain ⟨e00, e01, e10, e20, e30, e31, e40, e41⟩ := blockIdx t
  have ht : t.val < 4 := by have := t.isLt; have hN : cfg0.N = 4 := N_0; omega
  funext y
  obtain ⟨p, q, rfl⟩ : ∃ (p : Fin 512) (q : Fin 3072), y = ix2 p q := ⟨y 0, y 1, eq_ix2 y⟩
  have hp : p.val < 512 := p.isLt
  have hrow : (((cfg0.win 4).blk t).view.emb (ix2 p q) : S2048x3072.Idx)
      = ix2 (⟨512 * t.val + p.val, by omega⟩ : Fin 2048) q := by
    funext a; apply Fin.ext
    match a with
    | ⟨0, _⟩ => show win0_4.index t (0 : Fin 2) * 512 + 1 * p.val = 512 * t.val + p.val; omega
    | ⟨1, _⟩ => show win0_4.index t (1 : Fin 2) * 3072 + 1 * q.val = q.val; omega
  show k0_pay1 (F := Ideal) (iblk0 V c 0 t) (iblk0 V c 1 t) (iblk0 V c 2 t) (iblk0 V c 3 t) (ix2 p q)
    = qkvOf V c (((cfg0.win 4).blk t).view.emb (ix2 p q))
  rw [hrow]
  show _ = Cert.Spec.qkv (fun r k => V c main_arg0 (ix2 r k)) (fun k => V c main_arg1 (ix1 k)) (fun k => V c main_arg2 (ix1 k))
    (fun k j => V c main_v0 (ix2 k j)) (⟨512 * t.val + p.val, by omega⟩ : Fin 2048) q
  refine block_entry (iblk0 V c 0 t) (iblk0 V c 1 t) (iblk0 V c 2 t) (iblk0 V c 3 t)
    (fun r k => V c main_arg0 (ix2 r k)) (fun k => V c main_arg1 (ix1 k)) (fun k => V c main_arg2 (ix1 k))
    (fun k j => V c main_v0 (ix2 k j)) (⟨512 * t.val + p.val, by omega⟩ : Fin 2048) p q ?_ ?_ ?_ ?_
  · intro k
    show V c main_arg0 (((cfg0.win 0).blk t).view.emb (ix2 p k)) = V c main_arg0 (ix2 (⟨512 * t.val + p.val, by omega⟩ : Fin 2048) k)
    refine congrArg (V c main_arg0) (funext fun a => Fin.ext ?_)
    match a with
    | ⟨0, _⟩ => show win0_0.index t (0 : Fin 2) * 512 + 1 * p.val = 512 * t.val + p.val; omega
    | ⟨1, _⟩ => show win0_0.index t (1 : Fin 2) * 1024 + 1 * k.val = k.val; omega
  · intro k
    show V c main_arg1 (((cfg0.win 1).blk t).view.emb (ix1 k)) = V c main_arg1 (ix1 k)
    refine congrArg (V c main_arg1) (funext fun a => Fin.ext ?_)
    match a with
    | ⟨0, _⟩ => show win0_1.index t (0 : Fin 1) * 1024 + 1 * k.val = k.val; omega
  · intro k
    show V c main_arg2 (((cfg0.win 2).blk t).view.emb (ix1 k)) = V c main_arg2 (ix1 k)
    refine congrArg (V c main_arg2) (funext fun a => Fin.ext ?_)
    match a with
    | ⟨0, _⟩ => show win0_2.index t (0 : Fin 1) * 1024 + 1 * k.val = k.val; omega
  · intro k j
    show V c main_v0 (((cfg0.win 3).blk t).view.emb (ix2 k j)) = V c main_v0 (ix2 k j)
    refine congrArg (V c main_v0) (funext fun a => Fin.ext ?_)
    match a with
    | ⟨0, _⟩ => show win0_3.index t (0 : Fin 2) * 1024 + 1 * k.val = k.val; omega
    | ⟨1, _⟩ => show win0_3.index t (1 : Fin 2) * 3072 + 1 * j.val = j.val; omega

/-- An entry of the output array is in point t's block iff each coordinate is in the block's range on its axis. -/
theorem mem_blk (t : Fin cfg0.N) (i : S2048x3072.Idx) :
    i ∈ ((cfg0.win 4).blk t).view.set ↔ ∀ a : Fin 2, win0_4.index t a * S512x3072.size a ≤ (i a).val
      ∧ (i a).val < win0_4.index t a * S512x3072.size a + S512x3072.size a := by
  show i ∈ ((View.whole main_v2).slice (win0_4.rect t)).set ↔ _
  rw [View.set_slice_whole, Rect.mem_set_unit]
  exact Iff.rfl

/-- The four blocks cover the array: row r lies in the block of point r / 512. -/
theorem covered (i : S2048x3072.Idx) :
    ∃ t : Fin cfg0.N, (cfg0.win 4).flush t = true ∧ i ∈ ((cfg0.win 4).blk t).view.set := by
  have hi0 : (i 0).val < 2048 := (i 0).isLt
  have hi1 : (i 1).val < 3072 := (i 1).isLt
  have hN : cfg0.N = 4 := N_0
  obtain ⟨t, ht⟩ : ∃ t : Fin cfg0.N, t.val = (i 0).val / 512 := ⟨⟨(i 0).val / 512, by omega⟩, rfl⟩
  obtain ⟨-, -, -, -, -, -, e40, e41⟩ := blockIdx t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 3072 ≤ (i 1).val ∧ (i 1).val < win0_4.index t (1 : Fin 2) * 3072 + 3072
    omega

/-- The packed projection the first region leaves, entry by entry, from the contents `V` it was entered with. -/
theorem qkv_final (V : (c : Dev nD) → (b : Ref sig .tc) → Buf (Elt Ideal) ((c : Thread nD τ).loc b)) (c : Dev nD)
    (r : Fin 2048) (j : Fin 3072) :
    (dat0 (F := Ideal) V c).arrAt 4 cfg0.N (ix2 r j)
      = Cert.Spec.qkv (fun r k => V c main_arg0 (ix2 r k)) (fun k => V c main_arg1 (ix1 k)) (fun k => V c main_arg2 (ix1 k))
          (fun k j => V c main_v0 (ix2 k j)) r j := by
  have h := (dat0 (F := Ideal) V c).arrAt_eq_of_cover 4 (qkvOf V c) (fun t _ => flushed_eq V c t) covered
  exact congrFun h (ix2 r j)

end Cert.KernelIdeal.Hand.Proj

end
-- ==== Proof.KI.Pay1.lean ====
/-
  The second kernel's loop payload at an entry. One trip of the head-pair loop stores a 256 × 128 tile: its left half is
  the softmax attention of the left 64 lanes of the query, key and value tiles, its right half that of the right 64 lanes.
-/
import proofs.«421590_j85392539779833_3_alg».proof.Proof.Gen.KernelIdeal.Skeleton
import proofs.«421590_j85392539779833_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx

/-! ## The two block products read at an entry -/

theorem qk_lhs_0 (i : S256x2048.Idx) (c : dot_S256x64_S2048x64_S256x2048_1_1_0_0_n_n.contr.Idx) :
    (dot_S256x64_S2048x64_S256x2048_1_1_0_0_n_n.lhsIdx i c 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs_1 (i : S256x2048.Idx) (c : dot_S256x64_S2048x64_S256x2048_1_1_0_0_n_n.contr.Idx) :
    (dot_S256x64_S2048x64_S256x2048_1_1_0_0_n_n.lhsIdx i c 1).val = (c ⟨0, by decide⟩).val :=
  dot_S256x64_S2048x64_S256x2048_1_1_0_0_n_n.lhsIdx_val_of_single rfl i c
theorem qk_rhs_0 (i : S256x2048.Idx) (c : dot_S256x64_S2048x64_S256x2048_1_1_0_0_n_n.contr.Idx) :
    (dot_S256x64_S2048x64_S256x2048_1_1_0_0_n_n.rhsIdx i c 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs_1 (i : S256x2048.Idx) (c : dot_S256x64_S2048x64_S256x2048_1_1_0_0_n_n.contr.Idx) :
    (dot_S256x64_S2048x64_S256x2048_1_1_0_0_n_n.rhsIdx i c 1).val = (c ⟨0, by decide⟩).val :=
  dot_S256x64_S2048x64_S256x2048_1_1_0_0_n_n.rhsIdx_val_of_single rfl i c

/-- Entry (p, j) of the product of a query tile with the transpose of a key tile: the 64-term dot product of query row p
    and key row j. -/
theorem qk_apply (q : FVec Ideal S256x64 .bf16) (k : FVec Ideal S2048x64 .bf16) (p : Fin 256) (j : Fin 2048) :
    matmul dot_S256x64_S2048x64_S256x2048_1_1_0_0_n_n none q k (constant (F := Ideal) S256x2048 .f32 0x00000000#32) (ix2 p j)
      = ∑ d : Fin 64, q (ix2 p d) * k (ix2 j d) := by
  simp only [matmul]
  rw [Ideal.matmul_constant_zero_apply, ← Equiv.sum_comp (contrEquiv1 dot_S256x64_S2048x64_S256x2048_1_1_0_0_n_n 64 rfl rfl).symm]
  refine Finset.sum_congr rfl fun d _ => ?_
  have hd := contrEquiv1_symm_val dot_S256x64_S2048x64_S256x2048_1_1_0_0_n_n 64 rfl rfl d
  have el : dot_S256x64_S2048x64_S256x2048_1_1_0_0_n_n.lhsIdx (ix2 p j) ((contrEquiv1 dot_S256x64_S2048x64_S256x2048_1_1_0_0_n_n 64 rfl rfl).symm d) = ix2 p d := funext fun a => Fin.ext (by
    match a with
    | ⟨0, _⟩ => exact qk_lhs_0 _ _
    | ⟨1, _⟩ => exact (qk_lhs_1 _ _).trans hd)
  have er : dot_S256x64_S2048x64_S256x2048_1_1_0_0_n_n.rhsIdx (ix2 p j) ((contrEquiv1 dot_S256x64_S2048x64_S256x2048_1_1_0_0_n_n 64 rfl rfl).symm d) = ix2 j d := funext fun a => Fin.ext (by
    match a with
    | ⟨0, _⟩ => exact qk_rhs_0 _ _
    | ⟨1, _⟩ => exact (qk_rhs_1 _ _).trans hd)
  rw [el, er]

theorem pv_lhs_0 (i : S256x64.Idx) (c : dot_S256x2048_S2048x64_S256x64_1_0_0_1_n_n.contr.Idx) :
    (dot_S256x2048_S2048x64_S256x64_1_0_0_1_n_n.lhsIdx i c 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_lhs_1 (i : S256x64.Idx) (c : dot_S256x2048_S2048x64_S256x64_1_0_0_1_n_n.contr.Idx) :
    (dot_S256x2048_S2048x64_S256x64_1_0_0_1_n_n.lhsIdx i c 1).val = (c ⟨0, by decide⟩).val :=
  dot_S256x2048_S2048x64_S256x64_1_0_0_1_n_n.lhsIdx_val_of_single rfl i c
theorem pv_rhs_0 (i : S256x64.Idx) (c : dot_S256x2048_S2048x64_S256x64_1_0_0_1_n_n.contr.Idx) :
    (dot_S256x2048_S2048x64_S256x64_1_0_0_1_n_n.rhsIdx i c 0).val = (c ⟨0, by decide⟩).val :=
  dot_S256x2048_S2048x64_S256x64_1_0_0_1_n_n.rhsIdx_val_of_single rfl i c
theorem pv_rhs_1 (i : S256x64.Idx) (c : dot_S256x2048_S2048x64_S256x64_1_0_0_1_n_n.contr.Idx) :
    (dot_S256x2048_S2048x64_S256x64_1_0_0_1_n_n.rhsIdx i c 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Entry (p, d) of the product of a tile of weights with a value tile: row p of the weights against column d of the
    values. -/
theorem pv_apply (w : FVec Ideal S256x2048 .bf16) (v : FVec Ideal S2048x64 .bf16) (p : Fin 256) (d : Fin 64) :
    matmul dot_S256x2048_S2048x64_S256x64_1_0_0_1_n_n none w v (constant (F := Ideal) S256x64 .f32 0x00000000#32) (ix2 p d)
      = ∑ j : Fin 2048, w (ix2 p j) * v (ix2 j d) := by
  simp only [matmul]
  rw [Ideal.matmul_constant_zero_apply, ← Equiv.sum_comp (contrEquiv1 dot_S256x2048_S2048x64_S256x64_1_0_0_1_n_n 2048 rfl rfl).symm]
  refine Finset.sum_congr rfl fun j _ => ?_
  have hj := contrEquiv1_symm_val dot_S256x2048_S2048x64_S256x64_1_0_0_1_n_n 2048 rfl rfl j
  have el : dot_S256x2048_S2048x64_S256x64_1_0_0_1_n_n.lhsIdx (ix2 p d) ((contrEquiv1 dot_S256x2048_S2048x64_S256x64_1_0_0_1_n_n 2048 rfl rfl).symm j) = ix2 p j := funext fun a => Fin.ext (by
    match a with
    | ⟨0, _⟩ => exact pv_lhs_0 _ _
    | ⟨1, _⟩ => exact (pv_lhs_1 _ _).trans hj)
  have er : dot_S256x2048_S2048x64_S256x64_1_0_0_1_n_n.rhsIdx (ix2 p d) ((contrEquiv1 dot_S256x2048_S2048x64_S256x64_1_0_0_1_n_n 2048 rfl rfl).symm j) = ix2 j d := funext fun a => Fin.ext (by
    match a with
    | ⟨0, _⟩ => exact (pv_rhs_0 _ _).trans hj
    | ⟨1, _⟩ => exact pv_rhs_1 _ _)
  rw [el, er]

/-! ## A column of row statistics spread back over the row -/

/-- A vector of 256 row statistics, viewed as a column and spread over 2048 lanes, reads at (p, j) its entry p. -/
theorem spread_apply (c : FVec Ideal S256 .f32) (p : Fin 256) (j : Fin 2048) :
    broadcastTo S256x2048 (shapeCast S256x1 c shapeCasts_S256_S256x1) broadcasts_S256x1_S256x2048 (ix2 p j) = c (ix1 p) := by
  refine (broadcastTo_apply _ _ (ix2 p j) (ix2 p (0 : Fin 1)) (fun a => by
    match a with
    | ⟨0, _⟩ => rfl
    | ⟨1, _⟩ => rfl)).trans ?_
  exact shapeCast_apply _ _ (ix2 p (0 : Fin 1)) (ix1 p) (by
    rw [Shape.rowMajor_val_one, Shape.rowMajor_val_two]
    show p.val = p.val * 1 + 0
    omega)

/-- The maximum along the lanes, started from -∞, at row p: the fold of `max` over that row's 2048 entries. -/
theorem laneMax_apply (s : FVec Ideal S256x2048 .f32) (p : Fin 256) :
    multiReduction .maximumf [1] S256 s 0xFF800000#32 reduces_S256x2048_S256 (.inl rfl) rfl (ix1 p)
      = Cert.Spec.rowMax (fun j => s (ix2 p j)) := by
  refine (Ideal.multiReduction_maximumf_single s 0xFF800000#32 reduces_S256x2048_S256 (.inl rfl) rfl (ix1 p)).trans ?_
  unfold Cert.Spec.rowMax
  refine congrArg (fun f => (Finset.univ : Finset (Fin 2048)).fold max (Ideal.ofBits .f32 0xFF800000#32) f) (funext fun j => ?_)
  show s (reduces_S256x2048_S256.lift (ix1 p) j) = s (ix2 p j)
  refine congrArg s (funext fun a => Fin.ext ?_)
  match a with
  | ⟨0, _⟩ => rfl
  | ⟨1, _⟩ => rfl

/-- The sum along the lanes at row p: the sum of that row's 2048 entries. -/
theorem laneSum_apply (s : FVec Ideal S256x2048 .f32) (p : Fin 256) :
    multiReduction .add [1] S256 s 0x00000000#32 reduces_S256x2048_S256 (.inl rfl) rfl (ix1 p)
      = ∑ j : Fin 2048, s (ix2 p j) := by
  refine (Ideal.multiReduction_add_single s 0x00000000#32 reduces_S256x2048_S256 (.inl rfl) rfl (ix1 p)).trans ?_
  refine Finset.sum_congr rfl fun j _ => ?_
  refine congrArg s (funext fun a => Fin.ext ?_)
  match a with
  | ⟨0, _⟩ => rfl
  | ⟨1, _⟩ => rfl

/-! ## One head, from its scaled scores and its value tile -/

/-- The scaled scores of a query tile against a key tile: the block product times the literal 1/32. -/
def scaled (q : FVec Ideal S256x64 .bf16) (k : FVec Ideal S2048x64 .bf16) : FVec Ideal S256x2048 .f32 :=
  mulf (matmul dot_S256x64_S2048x64_S256x2048_1_1_0_0_n_n none q k (constant (F := Ideal) S256x2048 .f32 0x00000000#32))
    (broadcast S256x2048 (Scalar.ofBits (F := Ideal) .f32 0x3D000000#32))

/-- Entry (p, j) of the scaled scores: query row p's score against key row j. -/
theorem scaled_apply (q : FVec Ideal S256x64 .bf16) (k : FVec Ideal S2048x64 .bf16) (p : Fin 256) (j : Fin 2048) :
    scaled q k (ix2 p j) = Cert.Spec.scores (fun d => q (ix2 p d)) (fun j' d => k (ix2 j' d)) j := by
  unfold scaled Cert.Spec.scores
  rw [mulf_apply, qk_apply]
  rfl

/-- A head's output tile from its scaled scores `s` and its value tile `v`: each row of `s` shifted by its maximum,
    exponentiated, divided by the sum of the exponentials, and multiplied into `v`. -/
def headTile (s : FVec Ideal S256x2048 .f32) (v : FVec Ideal S2048x64 .bf16) : FVec Ideal S256x64 .bf16 :=
  have m : FVec Ideal S256 .f32 := multiReduction .maximumf [1] S256 s 0xFF800000#32 reduces_S256x2048_S256 (.inl rfl) rfl
  have x : FVec Ideal S256x2048 .f32 := exp (subf s (broadcastTo S256x2048 (shapeCast S256x1 m shapeCasts_S256_S256x1) broadcasts_S256x1_S256x2048))
  have t : FVec Ideal S256 .f32 := multiReduction .add [1] S256 x 0x00000000#32 reduces_S256x2048_S256 (.inl rfl) rfl
  have w : FVec Ideal S256x2048 .f32 := divf x (broadcastTo S256x2048 (shapeCast S256x1 t shapeCasts_S256_S256x1) broadcasts_S256x1_S256x2048)
  truncf .bf16 (matmul dot_S256x2048_S2048x64_S256x64_1_0_0_1_n_n none (truncf .bf16 w bitsLt_bf16_f32) v
    (constant (F := Ideal) S256x64 .f32 0x00000000#32)) bitsLt_bf16_f32

/-- Entry (p, d) of a head's output tile: the softmax weights of row p of the scores against column d of the values. -/
theorem headTile_apply (s : FVec Ideal S256x2048 .f32) (v : FVec Ideal S2048x64 .bf16) (p : Fin 256) (d : Fin 64) :
    headTile s v (ix2 p d) = ∑ j : Fin 2048, Cert.Spec.softRow (fun j' => s (ix2 p j')) j * v (ix2 j d) := by
  have hx : ∀ j : Fin 2048,
      exp (subf s (broadcastTo S256x2048 (shapeCast S256x1
        (multiReduction .maximumf [1] S256 s 0xFF800000#32 reduces_S256x2048_S256 (.inl rfl) rfl)
        shapeCasts_S256_S256x1) broadcasts_S256x1_S256x2048)) (ix2 p j)
        = Cert.Spec.expRow (fun j' => s (ix2 p j')) j := fun j => by
    show Ideal.exp (s (ix2 p j) - _) = _
    rw [spread_apply, laneMax_apply]
    rfl
  unfold headTile
  rw [truncf_apply]
  refine (pv_apply _ v p d).trans ?_
  refine Finset.sum_congr rfl fun j _ => ?_
  refine congrArg (· * v (ix2 j d)) ?_
  rw [truncf_apply, divf_apply, spread_apply, laneSum_apply, hx j]
  unfold Cert.Spec.softRow
  refine congrArg (Ideal.div _) (Finset.sum_congr rfl fun j' _ => hx j')

/-! ## One half of the tile -/

/-- The head whose query, key and value tiles are lanes `o .. o + 63` of the three loaded tiles (`ln d` is lane `o + d`),
    at an entry (p, d). -/
theorem half_apply (o : Nat) (hq : S256x128.Slices ![0, o] S256x64) (hk : S2048x128.Slices ![0, o] S2048x64)
    (hv : S2048x128.Slices ![0, o] S2048x64) (Qt : FVec Ideal S256x128 .bf16) (Kt Vt : FVec Ideal S2048x128 .bf16)
    (p : Fin 256) (d : Fin 64) (ln : Fin 64 → Fin 128) (hln : ∀ d' : Fin 64, (ln d').val = o + d'.val) :
    headTile (scaled (extractStridedSlice S256x64 ![0, o] Qt hq) (extractStridedSlice S2048x64 ![0, o] Kt hk))
        (extractStridedSlice S2048x64 ![0, o] Vt hv) (ix2 p d)
      = Cert.Spec.headOut (fun d' => Qt (ix2 p (ln d'))) (fun j d' => Kt (ix2 j (ln d'))) (fun j d' => Vt (ix2 j (ln d'))) d := by
  have eq : (fun d' : Fin 64 => extractStridedSlice S256x64 ![0, o] Qt hq (ix2 p d')) = fun d' => Qt (ix2 p (ln d')) :=
    funext fun d' => slice2_axis1_apply o Qt hq p d' (ln d') (hln d')
  have ek : (fun (j' : Fin 2048) (d' : Fin 64) => extractStridedSlice S2048x64 ![0, o] Kt hk (ix2 j' d'))
      = fun j' d' => Kt (ix2 j' (ln d')) :=
    funext fun j' => funext fun d' => slice2_axis1_apply o Kt hk j' d' (ln d') (hln d')
  have hs : (fun j' : Fin 2048 =>
        scaled (extractStridedSlice S256x64 ![0, o] Qt hq) (extractStridedSlice S2048x64 ![0, o] Kt hk) (ix2 p j'))
      = Cert.Spec.scores (fun d' => Qt (ix2 p (ln d'))) (fun j d' => Kt (ix2 j (ln d'))) :=
    funext fun j' => by rw [scaled_apply, eq, ek]
  rw [headTile_apply, hs]
  unfold Cert.Spec.headOut
  refine Finset.sum_congr rfl fun j _ => ?_
  rw [slice2_axis1_apply o Vt hv j d (ln d) (hln d)]

/-! ## The stored tile -/

/-- Lane `64 * (e / 64) + d` of a 128-lane tile: coordinate `d` of the half that lane `e` lies in. -/
def lane (e : Fin 128) (d : Fin 64) : Fin 128 := ⟨64 * (e.val / 64) + d.val, by have := e.isLt; have := d.isLt; omega⟩

/-- Entry (p, e) of the tile one trip stores, from the query tile and the key and value tiles it loaded: the output, at
    coordinate `e % 64`, of the head that owns the half lane `e` lies in. -/
theorem trip_apply (Qt : Vec Ideal S256x128 .bf16) (Kt Vt : Vec Ideal S2048x128 .bf16) (p : Fin 256) (e : Fin 128) :
    k1_pay1 (F := Ideal) (k1_pay6 Vt) (k1_pay7 Qt Kt Vt) (k1_pay8 Qt Kt) k1_pay9 (ix2 p e)
      = Cert.Spec.headOut (fun d => Qt (ix2 p (lane e d))) (fun j d => Kt (ix2 j (lane e d))) (fun j d => Vt (ix2 j (lane e d)))
          ⟨e.val % 64, Nat.mod_lt _ (by norm_num)⟩ := by
  have h3 : k1_pay3 (F := Ideal) Qt = Qt := shapeCast_self Qt _
  have h4 : k1_pay4 (F := Ideal) Kt = Kt := shapeCast_self Kt _
  have h5 : k1_pay5 (F := Ideal) Vt = Vt := shapeCast_self Vt _
  -- the left head, lanes 0 .. 63
  have hL : k1_pay7 (F := Ideal) Qt Kt Vt
      = headTile (scaled (extractStridedSlice S256x64 ![0, 0] Qt slices_S256x128_o0_0_S256x64)
            (extractStridedSlice S2048x64 ![0, 0] Kt slices_S2048x128_o0_0_S2048x64))
          (extractStridedSlice S2048x64 ![0, 0] Vt slices_S2048x128_o0_0_S2048x64) := by
    unfold k1_pay7
    rw [h3, h4, h5]
    rfl
  -- the right head, lanes 64 .. 127
  have hR : headTile (mulf (k1_pay8 (F := Ideal) Qt Kt) (k1_pay9 (F := Ideal))) (k1_pay6 (F := Ideal) Vt)
      = headTile (scaled (extractStridedSlice S256x64 ![0, 64] Qt slices_S256x128_o0_64_S256x64)
            (extractStridedSlice S2048x64 ![0, 64] Kt slices_S2048x128_o0_64_S2048x64))
          (extractStridedSlice S2048x64 ![0, 64] Vt slices_S2048x128_o0_64_S2048x64) := by
    unfold k1_pay8 k1_pay6
    rw [h3, h4, h5]
    rfl
  -- the stored tile: the two heads' tiles side by side
  show shapeCast S256x128 (concatenate S256x128 1
      [⟨S256x64, k1_pay7 (F := Ideal) Qt Kt Vt⟩,
       ⟨S256x64, headTile (mulf (k1_pay8 (F := Ideal) Qt Kt) (k1_pay9 (F := Ideal))) (k1_pay6 (F := Ideal) Vt)⟩]
      concatenates_S256x64_S256x64_S256x128_d1) shapeCasts_S256x128_S256x128 (ix2 p e) = _
  rw [shapeCast_self, hL, hR]
  by_cases he : e.val < 64
  · refine (concatenate_pair_apply_left _ _ _ concatenates_S256x64_S256x64_S256x128_d1 (ix2 p e) rfl
      (ix2 p (⟨e.val % 64, Nat.mod_lt _ (by norm_num)⟩ : Fin 64)) (fun b => by
        match b with
        | ⟨0, _⟩ => rfl
        | ⟨1, _⟩ => exact Nat.mod_eq_of_lt he)).trans ?_
    exact half_apply 0 _ _ _ Qt Kt Vt p _ (lane e) (fun d' => by
      show 64 * (e.val / 64) + d'.val = 0 + d'.val
      omega)
  · refine (concatenate_pair_apply_right _ _ _ concatenates_S256x64_S256x64_S256x128_d1 (ix2 p e) rfl rfl
      (ix2 p (⟨e.val % 64, Nat.mod_lt _ (by norm_num)⟩ : Fin 64)) (fun b => by
        match b with
        | ⟨0, _⟩ => exact fun _ => rfl
        | ⟨1, _⟩ => exact fun h => absurd rfl h) (by
        show e.val % 64 + 64 = e.val
        have := e.isLt
        omega)).trans ?_
    exact half_apply 64 _ _ _ Qt Kt Vt p _ (lane e) (fun d' => by
      show 64 * (e.val / 64) + d'.val = 64 + d'.val
      have := e.isLt
      omega)

end Cert.KernelIdeal.Pay

end
-- ==== Proof.KI.Pay2.lean ====
/-
  The second kernel's last payload at an entry: after the loop the whole scratch is multiplied into the output weights
  and the bias row is added.
-/
import proofs.«421590_j85392539779833_3_alg».proof.Proof.Gen.KernelIdeal.Skeleton
import proofs.«421590_j85392539779833_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx

/-! ## The operand indices of the product

At output entry `i` and contraction coordinate `q` the left operand is read at row `i 0`, column `q`, and the right
operand at row `q`, column `i 1`. One lemma per axis. -/

theorem lhs_out_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

theorem lhs_out_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q

theorem rhs_out_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q

theorem rhs_out_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The product into a zero accumulator at entry (p, c): row p of the left operand against column c of the right. -/
theorem outMatmul_apply (a : FVec Ideal S256x1024 .bf16) (w : FVec Ideal S1024x1024 .bf16) (p : Fin 256) (c : Fin 1024) :
    matmul dot_S256x1024_S1024x1024_S256x1024_1_0_0_1_n_n none a w (constant (F := Ideal) S256x1024 .f32 0x00000000#32) (ix2 p c)
      = ∑ e : Fin 1024, a (ix2 p e) * w (ix2 e c) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p c)
      ((contrEquiv1 dot_S256x1024_S1024x1024_S256x1024_1_0_0_1_n_n 1024 rfl rfl).symm k) = ix2 p k :=
    funext fun ax => Fin.ext (by
      match ax with
      | ⟨0, _⟩ => exact lhs_out_0 _ _
      | ⟨1, _⟩ => exact (lhs_out_1 _ _).trans hk)
  have er : dot_S256x1024_S1024x1024_S256x1024_1_0_0_1_n_n.rhsIdx (ix2 p c)
      ((contrEquiv1 dot_S256x1024_S1024x1024_S256x1024_1_0_0_1_n_n 1024 rfl rfl).symm k) = ix2 k c :=
    funext fun ax => Fin.ext (by
      match ax with
      | ⟨0, _⟩ => exact (rhs_out_0 _ _).trans hk
      | ⟨1, _⟩ => exact rhs_out_1 _ _)
  rw [el, er]

/-- The bias, a vector of 1024 entries laid out as one row and repeated over the 256 rows, reads its entry c at (p, c). -/
theorem biasRow_apply (b : FVec Ideal S1024 .f32) (p : Fin 256) (c : Fin 1024) :
    broadcastTo S256x1024 (shapeCast S1x1024 b shapeCasts_S1024_S1x1024) broadcasts_S1x1024_S256x1024 (ix2 p c) = b (ix1 c) :=
  (broadcastTo_1b_ab_apply _ broadcasts_S1x1024_S256x1024 p c).trans
    (shapeCast_a_1a_apply b shapeCasts_S1024_S1x1024 (0 : Fin 1) c)

/-- Entry (p, c) of the payload stored after the loop: row p of the scratch against column c of the output weights,
    plus the bias at c. -/
theorem pay2_apply (v1 : Vec Ideal S256x1024 .bf16) (v2 : Vec Ideal S1024x1024 .bf16) (v5 : Vec Ideal S1024 .f32)
    (p : Fin 256) (c : Fin 1024) :
    k1_pay2 (F := Ideal) v1 v2 v5 (ix2 p c)
      = Cert.Spec.outProj (fun e => v1 (ix2 p e)) (fun e c => v2 (ix2 e c)) (fun c => v5 (ix1 c)) c := by
  unfold k1_pay2 Cert.Spec.outProj
  dsimp only
  rw [shapeCast_self]
  refine (addf_apply _ _ _).trans ?_
  rw [outMatmul_apply, biasRow_apply]

end Cert.KernelIdeal.Pay

end
-- ==== Proof.KI.Value1.lean ====
/-
  The second region's output array after all eight points: entry (r, c) is row r of the concatenated head outputs,
  computed from the packed projection the region was entered with, against column c of the output weights, plus the
  bias. Point t writes rows 256 t … 256 t + 255, so the eight blocks cover the array, and each is that function's block.
-/
import proofs.«421590_j85392539779833_3_alg».proof.Proof.KI.Body1
import proofs.«421590_j85392539779833_3_alg».proof.Proof.KI.Pay1
import proofs.«421590_j85392539779833_3_alg».proof.Proof.KI.Pay2
import proofs.«421590_j85392539779833_3_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand.Attn

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-! ## The lanes a trip reads and writes -/

theorem zero2 : (![0, 0] : Fin 2 → Nat) = fun _ => 0 := funext fun a => by fin_cases a <;> rfl
theorem zero1 : (![0] : Fin 1 → Nat) = fun _ => 0 := funext fun a => by fin_cases a <;> rfl

/-- Lane q of trip k's query lanes is column 128 k + q of the query block. -/
theorem ldQ_apply (x0 : Vec Ideal S256x3072 .bf16) (k : Fin k1_t1_loop.trips) (p : Fin 256) (q : Fin 128) (cl : Fin 3072)
    (h : cl.val = 128 * k.val + q.val) : (View.ld x0 (rQ k) : Vec Ideal S256x128 .bf16) (ix2 p q) = x0 (ix2 p cl) := by
  refine congrArg x0 (funext fun a => Fin.ext ?_)
  match a with
  | ⟨0, _⟩ =>
    show (k1_off1 k) 0 + 1 * p.val = p.val
    rw [k1_off1_eq]
    show 0 + 1 * p.val = p.val
    omega
  | ⟨1, _⟩ =>
    show (k1_off1 k) 1 + 1 * q.val = cl.val
    rw [k1_off1_eq, h]
    show 128 * k.val + 1 * q.val = _
    omega

/-- Lane q of trip k's key lanes is column 1024 + 128 k + q of the block of all rows. -/
theorem ldK_apply (x1 : Vec Ideal S2048x3072 .bf16) (k : Fin k1_t1_loop.trips) (j : Fin 2048) (q : Fin 128) (cl : Fin 3072)
    (h : cl.val = 1024 + 128 * k.val + q.val) : (View.ld x1 (rK k) : Vec Ideal S2048x128 .bf16) (ix2 j q) = x1 (ix2 j cl) := by
  have e : k1_off2 k 1024#32 = ![0, 1024 * 0 + 128 * k.val + 1024] := k1_off2_eq k ⟨0, by decide⟩
  refine congrArg x1 (funext fun a => Fin.ext ?_)
  match a with
  | ⟨0, _⟩ =>
    show (k1_off2 k 1024#32) 0 + 1 * j.val = j.val
    rw [e]
    show 0 + 1 * j.val = j.val
    omega
  | ⟨1, _⟩ =>
    show (k1_off2 k 1024#32) 1 + 1 * q.val = cl.val
    rw [e, h]
    show 1024 * 0 + 128 * k.val + 1024 + 1 * q.val = _
    omega

/-- Lane q of trip k's value lanes is column 2048 + 128 k + q of the block of all rows. -/
theorem ldV_apply (x1 : Vec Ideal S2048x3072 .bf16) (k : Fin k1_t1_loop.trips) (j : Fin 2048) (q : Fin 128) (cl : Fin 3072)
    (h : cl.val = 2048 + 128 * k.val + q.val) : (View.ld x1 (rV k) : Vec Ideal S2048x128 .bf16) (ix2 j q) = x1 (ix2 j cl) := by
  have e : k1_off2 k 2048#32 = ![0, 1024 * 1 + 128 * k.val + 1024] := k1_off2_eq k ⟨1, by decide⟩
  refine congrArg x1 (funext fun a => Fin.ext ?_)
  match a with
  | ⟨0, _⟩ =>
    show (k1_off2 k 2048#32) 0 + 1 * j.val = j.val
    rw [e]
    show 0 + 1 * j.val = j.val
    omega
  | ⟨1, _⟩ =>
    show (k1_off2 k 2048#32) 1 + 1 * q.val = cl.val
    rw [e, h]
    show 1024 * 1 + 128 * k.val + 1024 + 1 * q.val = _
    omega

/-! ## The scratch after the loop -/

/-- The concatenated head outputs at (p, e) read off the two blocks a point holds: query row p of the query block `x0`
    against the key and value rows of `x1`, the block of all rows. -/
def attnAt (x0 : Vec Ideal S256x3072 .bf16) (x1 : Vec Ideal S2048x3072 .bf16) (p : Fin 256) (e : Fin 1024) : EReal :=
  Cert.Spec.headOut (fun d => x0 (ix2 p (Cert.Spec.col 0 (by norm_num) (Cert.Spec.headOf e) d)))
    (fun j d => x1 (ix2 j (Cert.Spec.col 1024 (by norm_num) (Cert.Spec.headOf e) d)))
    (fun j d => x1 (ix2 j (Cert.Spec.col 2048 (by norm_num) (Cert.Spec.headOf e) d))) (Cert.Spec.dimOf e)

/-- Lane l of the tile trip k stores is column e = 128 k + l of the concatenated head outputs: lane l's half of the
    trip's 128 lanes is head e / 64, and its coordinate in the half is e % 64. -/
theorem tile_apply (x0 : Vec Ideal S256x3072 .bf16) (x1 : Vec Ideal S2048x3072 .bf16) (k : Fin k1_t1_loop.trips)
    (p : Fin 256) (l : Fin 128) (e : Fin 1024) (he : e.val = 128 * k.val + l.val) :
    tile x0 x1 k (ix2 p l) = attnAt x0 x1 p e := by
  have hl := l.isLt
  unfold tile attnAt
  refine (Pay.trip_apply (View.ld x0 (rQ k)) (View.ld x1 (rK k)) (View.ld x1 (rV k)) p l).trans ?_
  have hq : (fun d : Fin 64 => (View.ld x0 (rQ k) : Vec Ideal S256x128 .bf16) (ix2 p (Pay.lane l d)))
      = fun d => x0 (ix2 p (Cert.Spec.col 0 (by norm_num) (Cert.Spec.headOf e) d)) :=
    funext fun d => ldQ_apply x0 k p _ _ (by
      show 0 + (64 * (e.val / 64) + d.val) = 128 * k.val + (64 * (l.val / 64) + d.val)
      omega)
  have hk : (fun (j : Fin 2048) (d : Fin 64) => (View.ld x1 (rK k) : Vec Ideal S2048x128 .bf16) (ix2 j (Pay.lane l d)))
      = fun j d => x1 (ix2 j (Cert.Spec.col 1024 (by norm_num) (Cert.Spec.headOf e) d)) :=
    funext fun j => funext fun d => ldK_apply x1 k j _ _ (by
      show 1024 + (64 * (e.val / 64) + d.val) = 1024 + 128 * k.val + (64 * (l.val / 64) + d.val)
      omega)
  have hv : (fun (j : Fin 2048) (d : Fin 64) => (View.ld x1 (rV k) : Vec Ideal S2048x128 .bf16) (ix2 j (Pay.lane l d)))
      = fun j d => x1 (ix2 j (Cert.Spec.col 2048 (by norm_num) (Cert.Spec.headOf e) d)) :=
    funext fun j => funext fun d => ldV_apply x1 k j _ _ (by
      show 2048 + (64 * (e.val / 64) + d.val) = 2048 + 128 * k.val + (64 * (l.val / 64) + d.val)
      omega)
  have hd : (⟨l.val % 64, Nat.mod_lt _ (by norm_num)⟩ : Fin 64) = Cert.Spec.dimOf e :=
    Fin.ext (by show l.val % 64 = e.val % 64; omega)
  exact (congrArg (fun d => Cert.Spec.headOut _ _ _ d) hd).trans
    (congrArg₂ (fun K Vv => Cert.Spec.headOut _ K Vv _) hk hv |>.trans (congrArg (fun q => Cert.Spec.headOut q _ _ _) hq))

/-- The concatenated head outputs as one function of the scratch tile's index. -/
def attnTile (x0 : Vec Ideal S256x3072 .bf16) (x1 : Vec Ideal S2048x3072 .bf16) : Vec Ideal S256x1024 .bf16 :=
  fun y => attnAt x0 x1 ⟨(y 0).val, idx2_lt0 y⟩ ⟨(y 1).val, idx2_lt1 y⟩

/-- Trip k's store is the block of that function its rectangle names: local lane l sits at column 128 k + l. -/
theorem tile_block (x0 : Vec Ideal S256x3072 .bf16) (x1 : Vec Ideal S2048x3072 .bf16) (k : Fin k1_t1_loop.trips)
    (x : S256x128.Idx) : tile x0 x1 k x = attnTile x0 x1 ((rS k).emb x) := by
  obtain ⟨p, l, rfl⟩ : ∃ (p : Fin 256) (l : Fin 128), x = ix2 p l := ⟨x 0, x 1, eq_ix2 x⟩
  have hl := l.isLt
  have hk : k.val < 8 := by have := k.isLt; have h8 := trips_eq; omega
  have h0 : (((rS k).emb (ix2 p l) : S256x1024.Idx) 0).val = p.val := by
    show (k1_off3 k) 0 + 1 * p.val = p.val
    rw [k1_off3_eq]
    show 0 + 1 * p.val = p.val
    omega
  have h1 : (((rS k).emb (ix2 p l) : S256x1024.Idx) 1).val = 128 * k.val + l.val := by
    show (k1_off3 k) 1 + 1 * l.val = _
    rw [k1_off3_eq]
    show 128 * k.val + 1 * l.val = _
    omega
  refine (tile_apply x0 x1 k p l ⟨128 * k.val + l.val, by omega⟩ rfl).trans ?_
  unfold attnTile
  exact congrArg₂ (attnAt x0 x1) (Fin.ext h0.symm) (Fin.ext h1.symm)

/-- So every store of the trips before `n` is a block of that one function. -/
theorem pcs_blocks (x0 : Vec Ideal S256x3072 .bf16) (x1 : Vec Ideal S2048x3072 .bf16) :
    ∀ (n : ℕ), ∀ pc ∈ pcs x0 x1 n, ∀ x : pc.1.shape.Idx, pc.2 x = attnTile x0 x1 (pc.1.emb x)
  | 0, pc, h => absurd h List.not_mem_nil
  | n + 1, pc, h => by
    rw [pcs] at h
    by_cases hn : n < k1_t1_loop.trips
    · rw [dif_pos hn] at h
      rcases List.mem_cons.mp h with rfl | h'
      · exact fun x => tile_block x0 x1 ⟨n, hn⟩ x
      · exact pcs_blocks x0 x1 n pc h'
    · rw [dif_neg hn] at h
      exact pcs_blocks x0 x1 n pc h

/-- The scratch after the eight trips, at (p, e): the concatenated head outputs there. -/
theorem scratch_apply (x0 : Vec Ideal S256x3072 .bf16) (x1 : Vec Ideal S2048x3072 .bf16) (p : Fin 256) (e : Fin 1024) :
    scratchAfter x0 x1 (ix2 p e) = attnAt x0 x1 p e := by
  unfold scratchAfter
  exact View.canon_apply_of_pieces (attnTile x0 x1) _ (pcs_blocks x0 x1 _) (ix2 p e) (cover_scr x0 x1 _)

/-! ## What a point leaves in the output block -/

/-- Entry (p, c) of the output block: row p of the concatenated head outputs against column c of the block of output
    weights, plus the bias block at c. -/
theorem out1_apply (x0 : Vec Ideal S256x3072 .bf16) (x1 : Vec Ideal S2048x3072 .bf16) (x2 : Vec Ideal S1024x1024 .bf16)
    (x3 : Vec Ideal S1024 .f32) (p : Fin 256) (c : Fin 1024) :
    out1 x0 x1 x2 x3 (ix2 p c)
      = Cert.Spec.outProj (attnAt x0 x1 p) (fun e c => x2 (ix2 e c)) (fun c => x3 (ix1 c)) c := by
  have e1 : View.ld (scratchAfter x0 x1) rOut1 = scratchAfter x0 x1 := View.ld_unit_zero zero2 _ _
  have e2 : View.ld x2 rWo1 = x2 := View.ld_unit_zero zero2 _ _
  have e3 : View.ld x3 rB1 = x3 := View.ld_unit_zero zero1 _ _
  unfold out1
  rw [View.canon_unit_zero zero2, e1, e2, e3]
  refine (Pay.pay2_apply _ _ _ p c).trans ?_
  exact congrArg (fun A => Cert.Spec.outProj A _ _ c) (funext fun e => scratch_apply x0 x1 p e)

/-- The same with the four blocks named as parts of whole arrays: if the query block's row p is row r of the packed
    projection `P`, the block of all rows is `P`, and the other two blocks are the output weights and the bias, the
    entry is the whole function's at (r, c). -/
theorem point_apply (x0 : Vec Ideal S256x3072 .bf16) (x1 : Vec Ideal S2048x3072 .bf16) (x2 : Vec Ideal S1024x1024 .bf16)
    (x3 : Vec Ideal S1024 .f32) (P : Fin 2048 → Fin 3072 → EReal) (Wo : Fin 1024 → Fin 1024 → EReal) (bo : Fin 1024 → EReal)
    (r : Fin 2048) (p : Fin 256) (c : Fin 1024) (h0 : ∀ j, x0 (ix2 p j) = P r j) (h1 : ∀ i j, x1 (ix2 i j) = P i j)
    (h2 : ∀ e c', x2 (ix2 e c') = Wo e c') (h3 : ∀ c', x3 (ix1 c') = bo c') :
    out1 x0 x1 x2 x3 (ix2 p c) = Cert.Spec.outProj (Cert.Spec.attn P r) Wo bo c := by
  rw [out1_apply]
  have ha : attnAt x0 x1 p = Cert.Spec.attn P r := funext fun e => by
    unfold attnAt Cert.Spec.attn
    simp only [h0, h1]
  have hw : (fun e c' => x2 (ix2 e c')) = Wo := funext fun e => funext fun c' => h2 e c'
  have hb : (fun c' => x3 (ix1 c')) = bo := funext fun c' => h3 c'
  rw [ha, hw, hb]

/-! ## From the eight blocks to the array -/

section Array

variable (V : (c : Dev nD) → (b : Ref sig .tc) → Buf (Elt Ideal) ((c : Thread nD τ).loc b)) (c : Dev nD)

/-- The whole result: entry (r, e) from the contents the region was entered with. -/
def resAt : S2048x1024.Idx → Elt Ideal .f32 := fun i =>
  Cert.Spec.outProj (Cert.Spec.attn (fun r j => V c main_v2 (ix2 r j)) ⟨(i 0).val, idx2_lt0 i⟩)
    (fun k e => V c main_v1 (ix2 k e)) (fun e => V c main_arg5 (ix1 e)) ⟨(i 1).val, idx2_lt1 i⟩

/-- The printed index maps, decided over the eight points: the query block and the output block are block `t` down the
    rows; the other three windows never move. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The query block at point `t` is rows 256 t … of the packed projection. -/
theorem iblk0_apply (t : Fin cfg1.N) (p : Fin 256) (j : Fin 3072) (r : Fin 2048) (hr : r.val = 256 * t.val + p.val) :
    (iblk1 V c 0 t : Vec Ideal S256x3072 .bf16) (ix2 p j) = V c main_v2 (ix2 r j) := by
  obtain ⟨e0, e1, -⟩ := idx_facts t
  unfold iblk1
  rw [View.read_apply]
  show V c main_v2 _ = V c main_v2 _
  refine congrArg (V c main_v2) (funext fun a => Fin.ext ?_)
  match a with
  | ⟨0, _⟩ => show win1_0.index t (0 : Fin 2) * 256 + 1 * p.val = r.val; rw [e0, hr]; omega
  | ⟨1, _⟩ => show win1_0.index t (1 : Fin 2) * 3072 + 1 * j.val = j.val; rw [e1]; omega

/-- The block of all rows is the packed projection. -/
theorem iblk1_apply (t : Fin cfg1.N) (i : Fin 2048) (j : Fin 3072) :
    (iblk1 V c 1 t : Vec Ideal S2048x3072 .bf16) (ix2 i j) = V c main_v2 (ix2 i j) := by
  obtain ⟨-, -, e0, e1, -⟩ := idx_facts t
  unfold iblk1
  rw [View.read_apply]
  show V c main_v2 _ = V c main_v2 _
  refine congrArg (V c main_v2) (funext fun a => Fin.ext ?_)
  match a with
  | ⟨0, _⟩ => show win1_1.index t (0 : Fin 2) * 2048 + 1 * i.val = i.val; rw [e0]; omega
  | ⟨1, _⟩ => show win1_1.index t (1 : Fin 2) * 3072 + 1 * j.val = j.val; rw [e1]; omega

/-- The block of output weights is the whole array of them. -/
theorem iblk2_apply (t : Fin cfg1.N) (e : Fin 1024) (j : Fin 1024) :
    (iblk1 V c 2 t : Vec Ideal S1024x1024 .bf16) (ix2 e j) = V c main_v1 (ix2 e j) := by
  obtain ⟨-, -, -, -, e0, e1, -⟩ := idx_facts t
  unfold iblk1
  rw [View.read_apply]
  show V c main_v1 _ = V c main_v1 _
  refine congrArg (V c main_v1) (funext fun a => Fin.ext ?_)
  match a with
  | ⟨0, _⟩ => show win1_2.index t (0 : Fin 2) * 1024 + 1 * e.val = e.val; rw [e0]; omega
  | ⟨1, _⟩ => show win1_2.index t (1 : Fin 2) * 1024 + 1 * j.val = j.val; rw [e1]; omega

/-- The bias block is the whole bias. -/
theorem iblk3_apply (t : Fin cfg1.N) (j : Fin 1024) :
    (iblk1 V c 3 t : Vec Ideal S1024 .f32) (ix1 j) = V c main_arg5 (ix1 j) := by
  obtain ⟨-, -, -, -, -, -, e0, -⟩ := idx_facts t
  unfold iblk1
  rw [View.read_apply]
  show V c main_arg5 _ = V c main_arg5 _
  refine congrArg (V c main_arg5) (funext fun a => Fin.ext ?_)
  match a with
  | ⟨0, _⟩ => show win1_3.index t (0 : Fin 1) * 1024 + 1 * j.val = j.val; rw [e0]; omega

/-- What point `t` leaves in the output block, entry by entry, is the whole result at the entry's place in the array:
    rows 256 t … 256 t + 255. -/
theorem out_block (t : Fin cfg1.N) (y : S256x1024.Idx) :
    out1 (iblk1 V c 0 t) (iblk1 V c 1 t) (iblk1 V c 2 t) (iblk1 V c 3 t) y
      = resAt V c (((cfg1.win 4).blk t).view.emb y) := by
  obtain ⟨p, q, rfl⟩ : ∃ (p : Fin 256) (q : Fin 1024), y = ix2 p q := ⟨y 0, y 1, eq_ix2 y⟩
  obtain ⟨-, -, -, -, -, -, -, e0, e1⟩ := idx_facts t
  have ht : t.val < 8 := by have := t.isLt; have h8 : cfg1.N = 8 := N_1; omega
  have h0 : ((((cfg1.win 4).blk t).view.emb (ix2 p q) : S2048x1024.Idx) 0).val = 256 * t.val + p.val := by
    show win1_4.index t (0 : Fin 2) * 256 + 1 * p.val = _
    rw [e0]; omega
  have h1 : ((((cfg1.win 4).blk t).view.emb (ix2 p q) : S2048x1024.Idx) 1).val = q.val := by
    show win1_4.index t (1 : Fin 2) * 1024 + 1 * q.val = _
    rw [e1]; omega
  refine (point_apply _ _ _ _ (fun r j => V c main_v2 (ix2 r j)) (fun k e => V c main_v1 (ix2 k e))
    (fun e => V c main_arg5 (ix1 e)) ⟨256 * t.val + p.val, by have := p.isLt; omega⟩ p q
    (fun j => iblk0_apply V c t p j _ rfl) (fun i j => iblk1_apply V c t i j) (fun e c' => iblk2_apply V c t e c')
    (fun c' => iblk3_apply V c t c')).trans ?_
  unfold resAt
  exact congrArg₂ (fun r e => Cert.Spec.outProj (Cert.Spec.attn _ r) _ _ e) (Fin.ext h0.symm) (Fin.ext h1.symm)

/-- What point `t` writes back is block `t` of the whole result. -/
theorem flushed_eq (t : Fin cfg1.N) :
    (dat1 (F := Ideal) V c).flushed 4 t = ((cfg1.win 4).blk t).view.read (Elt Ideal) (resAt V c) := by
  show (cfg1.win 4).cut (grid1.coords t) ((dat1 (F := Ideal) V c).after 4 t) = _
  rw [after1_4]
  funext y
  exact out_block V c t y

/-- An index of the array is in point `t`'s block iff each coordinate is in the block's range on its axis. -/
theorem mem_blk (t : Fin cfg1.N) (i : S2048x1024.Idx) :
    i ∈ ((cfg1.win 4).blk t).view.set ↔ ∀ a : Fin 2, win1_4.index t a * S256x1024.size a ≤ (i a).val ∧ (i a).val < win1_4.index t a * S256x1024.size a + S256x1024.size a := by
  show i ∈ ((View.whole main_v3).slice (win1_4.rect t)).set ↔ _
  rw [View.set_slice_whole, Rect.mem_set_unit]
  exact Iff.rfl

/-- Row r lies in the block of point r / 256, so the eight blocks cover the array. -/
theorem cover (i : S2048x1024.Idx) :
    ∃ t : Fin cfg1.N, (cfg1.win 4).flush t = true ∧ i ∈ ((cfg1.win 4).blk t).view.set := by
  have hi0 : (i 0).val < 2048 := (i 0).isLt
  have hi1 : (i 1).val < 1024 := (i 1).isLt
  have h8 : cfg1.N = 8 := N_1
  let t : Fin cfg1.N := ⟨(i 0).val / 256, by omega⟩
  obtain ⟨-, -, -, -, -, -, -, e0, e1⟩ := idx_facts t
  refine ⟨t, flush1_4 t, ?_⟩
  rw [mem_blk]
  intro a
  match a with
  | ⟨0, _⟩ =>
    show win1_4.index t (0 : Fin 2) * 256 ≤ (i 0).val ∧ (i 0).val < win1_4.index t (0 : Fin 2) * 256 + 256
    rw [e0]
    show (i 0).val / 256 * 256 ≤ (i 0).val ∧ (i 0).val < (i 0).val / 256 * 256 + 256
    omega
  | ⟨1, _⟩ =>
    show win1_4.index t (1 : Fin 2) * 1024 ≤ (i 1).val ∧ (i 1).val < win1_4.index t (1 : Fin 2) * 1024 + 1024
    rw [e1]
    omega

end Array

/-- The result the second region leaves, entry by entry, from the contents `V` it was entered with. -/
theorem res_final (V : (c : Dev nD) → (b : Ref sig .tc) → Buf (Elt Ideal) ((c : Thread nD τ).loc b)) (c : Dev nD)
    (r : Fin 2048) (e : Fin 1024) :
    (dat1 (F := Ideal) V c).arrAt 4 cfg1.N (ix2 r e)
      = Cert.Spec.outProj (Cert.Spec.attn (fun r j => V c main_v2 (ix2 r j)) r) (fun k e => V c main_v1 (ix2 k e))
          (fun e => V c main_arg5 (ix1 e)) e := by
  have h := (dat1 (F := Ideal) V c).arrAt_eq_of_cover 4 (resAt V c) (fun t _ => flushed_eq V c t) cover
  exact congrFun h (ix2 r e)

end Cert.KernelIdeal.Hand.Attn

end
-- ==== Proof.KI.Final.lean ====
/-
  The idealized kernel's result, entry by entry. The host stretch narrows the two weight matrices, which over the
  extended reals changes nothing; the first region leaves the packed projection of the normalised x; the second region
  leaves the out-projection of the sixteen heads' attention over that projection. Composed: the specified function of the
  six arguments.
-/
import proofs.«421590_j85392539779833_3_alg».proof.Proof.KI.Run
import proofs.«421590_j85392539779833_3_alg».proof.Proof.KI.Value0
import proofs.«421590_j85392539779833_3_alg».proof.Proof.KI.Value1
import Idealize.ShloMosaic.Lib.StableHlo.Run

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ)

/-- The narrowed projection weights are the projection weights: narrowing is the identity on the extended reals. -/
theorem W1_v0 (c : Dev nD) (i : S1024x3072.Idx) :
    (W1 (F := Ideal) m c main_v0 i : EReal) = m ((c : Thread nD τ).loc main_arg3) i := by
  have e : W1 (F := Ideal) m c main_v0
      = ((truncf (F := Ideal) .bf16 · bitsLt_bf16_f32) : (⟨S1024x3072, .f32⟩ : BufTy).Contents (Elt Ideal) → (⟨S1024x3072, .bf16⟩ : BufTy).Contents (Elt Ideal))
          (m ((c : Thread nD τ).loc main_arg3)) := by
    show StableHlo.after hostOps0 (fun b => m (c, b)) (Proc.devRef .tc main_v0) = _
    after_results
  rw [e]; rfl

/-- The narrowed output weights are the output weights. -/
theorem W1_v1 (c : Dev nD) (i : S1024x1024.Idx) :
    (W1 (F := Ideal) m c main_v1 i : EReal) = m ((c : Thread nD τ).loc main_arg4) i := by
  have e : W1 (F := Ideal) m c main_v1
      = ((truncf (F := Ideal) .bf16 · bitsLt_bf16_f32) : (⟨S1024x1024, .f32⟩ : BufTy).Contents (Elt Ideal) → (⟨S1024x1024, .bf16⟩ : BufTy).Contents (Elt Ideal))
          (m ((c : Thread nD τ).loc main_arg4)) := by
    show StableHlo.after hostOps0 (fun b => m (c, b)) (Proc.devRef .tc main_v1) = _
    after_results
  rw [e]; rfl

/-- The host stretch writes no argument. -/
theorem W1_arg (c : Dev nD) (b : Ref sig .tc) (h : b ∉ hostOps0_W) : W1 (F := Ideal) m c b = m ((c : Thread nD τ).loc b) :=
  (V1_of m c b h).trans rfl

/-- The packed projection the second region is entered with, entry by entry. -/
theorem E1_v2 (c : Dev nD) (r : Fin 2048) (j : Fin 3072) :
    E1 (F := Ideal) m c main_v2 (ix2 r j)
      = Cert.Spec.qkv (fun r k => m ((c : Thread nD τ).loc main_arg0) (ix2 r k)) (fun k => m ((c : Thread nD τ).loc main_arg1) (ix1 k))
          (fun k => m ((c : Thread nD τ).loc main_arg2) (ix1 k)) (fun k j => m ((c : Thread nD τ).loc main_arg3) (ix2 k j)) r j := by
  rw [show E1 (F := Ideal) m c main_v2 = qkvArr m c from W2_v2 m c]
  unfold qkvArr
  rw [Proj.qkv_final (E0 m) c r j]
  rw [show (fun r k => E0 (F := Ideal) m c main_arg0 (ix2 r k)) = fun r k => m ((c : Thread nD τ).loc main_arg0) (ix2 r k) from
      funext fun r => funext fun k => congrFun (W1_arg m c main_arg0 (by decide)) _,
    show (fun k => E0 (F := Ideal) m c main_arg1 (ix1 k)) = fun k => m ((c : Thread nD τ).loc main_arg1) (ix1 k) from
      funext fun k => congrFun (W1_arg m c main_arg1 (by decide)) _,
    show (fun k => E0 (F := Ideal) m c main_arg2 (ix1 k)) = fun k => m ((c : Thread nD τ).loc main_arg2) (ix1 k) from
      funext fun k => congrFun (W1_arg m c main_arg2 (by decide)) _,
    show (fun k j => E0 (F := Ideal) m c main_v0 (ix2 k j)) = fun k j => m ((c : Thread nD τ).loc main_arg3) (ix2 k j) from
      funext fun k => funext fun j => W1_v0 m c _]

/-- THE VALUE: entry (r, e) of what the program leaves in its result buffer is the specified function of the six
    argument arrays. -/
theorem res_value (c : Dev nD) (r : Fin 2048) (e : Fin 1024) :
    resArr (F := Ideal) m c (ix2 r e)
      = Cert.Spec.result (fun r k => m ((c : Thread nD τ).loc main_arg0) (ix2 r k)) (fun k => m ((c : Thread nD τ).loc main_arg1) (ix1 k))
          (fun k => m ((c : Thread nD τ).loc main_arg2) (ix1 k)) (fun k j => m ((c : Thread nD τ).loc main_arg3) (ix2 k j))
          (fun k e => m ((c : Thread nD τ).loc main_arg4) (ix2 k e)) (fun e => m ((c : Thread nD τ).loc main_arg5) (ix1 e)) r e := by
  unfold resArr
  rw [Attn.res_final (E1 m) c r e]
  unfold Cert.Spec.result
  rw [show (fun r j => E1 (F := Ideal) m c main_v2 (ix2 r j)) = Cert.Spec.qkv (fun r k => m ((c : Thread nD τ).loc main_arg0) (ix2 r k))
        (fun k => m ((c : Thread nD τ).loc main_arg1) (ix1 k)) (fun k => m ((c : Thread nD τ).loc main_arg2) (ix1 k))
        (fun k j => m ((c : Thread nD τ).loc main_arg3) (ix2 k j)) from funext fun r => funext fun j => E1_v2 m c r j,
    show (fun k e => E1 (F := Ideal) m c main_v1 (ix2 k e)) = fun k e => m ((c : Thread nD τ).loc main_arg4) (ix2 k e) from
      funext fun k => funext fun e => (congrFun (W2_of_ne m c main_v1 (by decide)) _).trans (W1_v1 m c _),
    show (fun e => E1 (F := Ideal) m c main_arg5 (ix1 e)) = fun e => m ((c : Thread nD τ).loc main_arg5) (ix1 e) from
      funext fun e => (congrFun (W2_of_ne m c main_arg5 (by decide)) _).trans (congrFun (W1_arg m c main_arg5 (by decide)) _)]

end Cert.KernelIdeal.Hand

end
-- ==== Proof.RefValue.lean ====
/-
  The reference program computes the specified function: its last stage, read at entry (r, c), is layer norm, the packed
  projection, the sixteen heads' softmax attention and the out-projection of the six arguments, as the specification
  states them in coordinates.
-/
import proofs.«421590_j85392539779833_3_alg».proof.Proof.Gen.ReferenceIdeal.Read
import proofs.«421590_j85392539779833_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

section Stages

/-- Two rank-2 indices with the same coordinates are equal; likewise at rank 3. -/
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

variable (x0 : (⟨S2048x1024, .f32⟩ : BufTy).Contents (Elt Ideal)) (x1 x2 : (⟨S1024, .f32⟩ : BufTy).Contents (Elt Ideal))
  (x3 : (⟨S1024x3072, .f32⟩ : BufTy).Contents (Elt Ideal)) (x4 : (⟨S1024x1024, .f32⟩ : BufTy).Contents (Elt Ideal))
  (x5 : (⟨S1024, .f32⟩ : BufTy).Contents (Elt Ideal))

/-! ## Layer norm (stages 0 to 23) -/

/-- The column of row means: at row r it is the mean of row r of x. -/
theorem v3_at (r : Fin 2048) (z : Fin 1) :
    val_main_v3 (F := Ideal) x0 (ix2 r z) = Cert.Spec.mean (fun k => x0 (ix2 r k)) := by
  rw [val_main_v3_apply, val_main_v1_apply, val_main_v0_apply, val_main_v2_apply, val_main_cst_apply, val_main_cst_0_apply]
  simp only [Ideal.hostDivf_def, Ideal.ofBits_def, Ideal.ofBits_zero_f32, zero_add]
  unfold Cert.Spec.mean
  refine congrArg (fun s => Ideal.div s _) (Finset.sum_congr rfl fun k _ => congrArg x0 ?_)
  idx2

/-- The centred entry, as the variance reads it (through stage 4's broadcast of the mean). -/
theorem v5_at (r : Fin 2048) (k : Fin 1024) :
    val_main_v5 (F := Ideal) x0 (ix2 r k) = x0 (ix2 r k) - Cert.Spec.mean (fun k' => x0 (ix2 r k')) := by
  rw [val_main_v5_apply, val_main_v4_apply, show idx_main_v4 (ix2 r k) = ix2 r (⟨0, Nat.one_pos⟩ : Fin 1) from by idx2, v3_at]
  rfl

/-- The centred entry, as the normalisation reads it (through stage 11's broadcast of the mean). -/
theorem v12_at (r : Fin 2048) (k : Fin 1024) :
    val_main_v12 (F := Ideal) x0 (ix2 r k) = x0 (ix2 r k) - Cert.Spec.mean (fun k' => x0 (ix2 r k')) := by
  rw [val_main_v12_apply, val_main_v11_apply, show idx_main_v11 (ix2 r k) = ix2 r (⟨0, Nat.one_pos⟩ : Fin 1) from by idx2, v3_at]
  rfl

/-- The column of row variances: the mean of the squared centred entries. -/
theorem v10_at (r : Fin 2048) (z : Fin 1) :
    val_main_v10 (F := Ideal) x0 (ix2 r z)
      = Cert.Spec.mean (fun k' => (x0 (ix2 r k') - Cert.Spec.mean (fun k => x0 (ix2 r k))) * (x0 (ix2 r k') - Cert.Spec.mean (fun k => x0 (ix2 r k)))) := by
  rw [val_main_v10_apply, val_main_v8_apply, val_main_v7_apply, val_main_v9_apply, val_main_cst_1_apply, val_main_cst_2_apply]
  simp only [Ideal.hostDivf_def, Ideal.ofBits_def, Ideal.ofBits_zero_f32, zero_add]
  unfold Cert.Spec.mean
  refine congrArg (fun s => Ideal.div s _) (Finset.sum_congr rfl fun k _ => ?_)
  rw [show idx_main_v7 (idx_main_v8 (ix2 r z)) k = ix2 r k from by idx2, val_main_v6_apply, v5_at]
  rfl

/-- The column of inverse standard deviations. -/
theorem v15_at (r : Fin 2048) (z : Fin 1) :
    val_main_v15 (F := Ideal) x0 (ix2 r z)
      = Ideal.rsqrt (Cert.Spec.mean (fun k' => (x0 (ix2 r k') - Cert.Spec.mean (fun k => x0 (ix2 r k))) * (x0 (ix2 r k') - Cert.Spec.mean (fun k => x0 (ix2 r k)))) + Cert.Spec.cEps) := by
  rw [val_main_v15_apply, val_main_v14_apply, v10_at, val_main_v13_apply, val_main_cst_3_apply]
  rfl

/-- Stage 23 at (r, k) is the normalised, scaled and shifted row r at k. -/
theorem v23_at (r : Fin 2048) (k : Fin 1024) :
    val_main_v23 (F := Ideal) x0 x1 x2 (ix2 r k)
      = Cert.Spec.lnRow (fun k' => x0 (ix2 r k')) (fun k' => x1 (ix1 k')) (fun k' => x2 (ix1 k')) k := by
  rw [val_main_v23_apply, val_main_v20_apply, val_main_v17_apply, v12_at, val_main_v16_apply,
    show idx_main_v16 (ix2 r k) = ix2 r (⟨0, Nat.one_pos⟩ : Fin 1) from by idx2, v15_at,
    val_main_v19_apply, val_main_v18_apply, val_main_v22_apply, val_main_v21_apply,
    show idx_main_v18 (idx_main_v19 (ix2 r k)) = ix1 k from by funext a; match a with | ⟨0, _⟩ => rfl,
    show idx_main_v21 (idx_main_v22 (ix2 r k)) = ix1 k from by funext a; match a with | ⟨0, _⟩ => rfl]
  rfl

/-! ## The packed projection (stage 24) -/

/-- The packed projection of the arguments, in coordinates. -/
abbrev proj : Fin 2048 → Fin 3072 → EReal :=
  Cert.Spec.qkv (fun r k => x0 (ix2 r k)) (fun k => x1 (ix1 k)) (fun k => x2 (ix1 k)) (fun k j => x3 (ix2 k j))

/-- Stage 24 at (r, j) is row r of the normalised x against column j of the packed weights. -/
theorem v24_at (r : Fin 2048) (j : Fin 3072) :
    val_main_v24 (F := Ideal) x0 x1 x2 x3 (ix2 r j) = proj x0 x1 x2 x3 r j := by
  rw [val_main_v24_apply]
  unfold proj Cert.Spec.qkv
  refine Finset.sum_congr rfl fun k _ => ?_
  rw [show lidx_main_v24 (ix2 r j) k = ix2 r k from by idx2, show ridx_main_v24 (ix2 r j) k = ix2 k j from by idx2, v23_at]

/-! ## Queries, keys and values by head (stages 25 to 33)

A reshape [2048, 1024] → [2048, 16, 64] reads entry (i, h, d) at (i, 64 h + d): the row-major position
(16 i + h) 64 + d divided by 1024 is i and its remainder is 64 h + d. -/

/-- Head h's query row i, cut out of the first third of the packed columns. -/
abbrev qRow (h : Fin 16) (i : Fin 2048) : Fin 64 → EReal :=
  fun d => proj x0 x1 x2 x3 i (Cert.Spec.col 0 (by norm_num) h d)
/-- Head h's key rows, cut out of the second third. -/
abbrev kMat (h : Fin 16) : Fin 2048 → Fin 64 → EReal :=
  fun j d => proj x0 x1 x2 x3 j (Cert.Spec.col 1024 (by norm_num) h d)
/-- Head h's value rows, cut out of the last third. -/
abbrev vMat (h : Fin 16) : Fin 2048 → Fin 64 → EReal :=
  fun j d => proj x0 x1 x2 x3 j (Cert.Spec.col 2048 (by norm_num) h d)
/-- Head h's scaled scores for query row i. -/
abbrev sRow (h : Fin 16) (i : Fin 2048) : Fin 2048 → EReal :=
  Cert.Spec.scores (qRow x0 x1 x2 x3 h i) (kMat x0 x1 x2 x3 h)

/-- The reshape's source index at (i, h, d). -/
theorem reshape_idx (i : Fin 2048) (h : Fin 16) (d : Fin 64) :
    idx_main_v28 (ix3 i h d) = ix2 i (⟨64 * h.val + d.val, by have := h.isLt; have := d.isLt; omega⟩ : Fin 1024) := by
  funext a
  match a with
  | ⟨0, _⟩ => exact Fin.ext (by show ((i.val * 16 + h.val) * 64 + d.val) / 1024 = i.val; have := h.isLt; have := d.isLt; omega)
  | ⟨1, _⟩ => exact Fin.ext (by show ((i.val * 16 + h.val) * 64 + d.val) % 1024 = 64 * h.val + d.val; have := h.isLt; have := d.isLt; omega)

/-- Head h's query row i at coordinate d is the packed projection at row i, column 64 h + d of the first third. -/
theorem v29_at (h : Fin 16) (i : Fin 2048) (d : Fin 64) :
    val_main_v29 (F := Ideal) x0 x1 x2 x3 (ix3 h i d) = qRow x0 x1 x2 x3 h i d := by
  rw [val_main_v29_apply, show idx_main_v29 (ix3 h i d) = ix3 i h d from by idx3, val_main_v28_apply, reshape_idx,
    val_main_v25_apply]
  refine (congrArg (val_main_v24 (F := Ideal) x0 x1 x2 x3) ?_).trans (v24_at x0 x1 x2 x3 i (Cert.Spec.col 0 (by norm_num) h d))
  funext a
  match a with
  | ⟨0, _⟩ => rfl
  | ⟨1, _⟩ => exact Fin.ext (by show 64 * h.val + d.val = 0 + (64 * h.val + d.val); omega)

/-- Head h's key row i at coordinate d: the second third. -/
theorem v31_at (h : Fin 16) (i : Fin 2048) (d : Fin 64) :
    val_main_v31 (F := Ideal) x0 x1 x2 x3 (ix3 h i d) = kMat x0 x1 x2 x3 h i d := by
  rw [val_main_v31_apply, show idx_main_v31 (ix3 h i d) = ix3 i h d from by idx3, val_main_v30_apply,
    show idx_main_v30 (ix3 i h d) = idx_main_v28 (ix3 i h d) from rfl, reshape_idx, val_main_v26_apply]
  refine (congrArg (val_main_v24 (F := Ideal) x0 x1 x2 x3) ?_).trans (v24_at x0 x1 x2 x3 i (Cert.Spec.col 1024 (by norm_num) h d))
  funext a
  match a with
  | ⟨0, _⟩ => rfl
  | ⟨1, _⟩ => rfl

/-- Head h's value row i at coordinate d: the last third. -/
theorem v33_at (h : Fin 16) (i : Fin 2048) (d : Fin 64) :
    val_main_v33 (F := Ideal) x0 x1 x2 x3 (ix3 h i d) = vMat x0 x1 x2 x3 h i d := by
  rw [val_main_v33_apply, show idx_main_v33 (ix3 h i d) = ix3 i h d from by idx3, val_main_v32_apply,
    show idx_main_v32 (ix3 i h d) = idx_main_v28 (ix3 i h d) from rfl, reshape_idx, val_main_v27_apply]
  refine (congrArg (val_main_v24 (F := Ideal) x0 x1 x2 x3) ?_).trans (v24_at x0 x1 x2 x3 i (Cert.Spec.col 2048 (by norm_num) h d))
  funext a
  match a with
  | ⟨0, _⟩ => rfl
  | ⟨1, _⟩ => rfl

/-! ## Scores and their row maximum (stages 34 to 39) -/

/-- The scaled score of head h, query row i, against key row j. -/
theorem v36_at (h : Fin 16) (i j : Fin 2048) :
    val_main_v36 (F := Ideal) x0 x1 x2 x3 (ix3 h i j) = sRow x0 x1 x2 x3 h i j := by
  rw [val_main_v36_apply, val_main_v34_apply, val_main_v35_apply, val_main_cst_4_apply]
  show (∑ d : Fin 64, _) * _ = (∑ d : Fin 64, qRow x0 x1 x2 x3 h i d * kMat x0 x1 x2 x3 h j d) * Cert.Spec.cScale
  refine congrArg (· * Cert.Spec.cScale) (Finset.sum_congr rfl fun d _ => ?_)
  rw [show lidx_main_v34 (ix3 h i j) d = ix3 h i d from by idx3, show ridx_main_v34 (ix3 h i j) d = ix3 h j d from by idx3,
    v29_at, v31_at]

/-- The maximum's shape fact in the form that names the index with the dropped coordinate put back. -/
theorem reduces_d2 : S16x2048x2048.Reduces [2] S16x2048 := by decide

/-- (h, i) with coordinate k put back on the last axis is (h, i, k). -/
theorem lift_d2 (h : Fin 16) (i : Fin 2048) (k : Fin 2048) : reduces_d2.lift (ix2 h i) k = ix3 h i k := by idx3

/-- Stage 37, the one fold: at (h, i) it is the maximum, from -∞, of that row of scores. -/
theorem v37_at (h : Fin 16) (i : Fin 2048) :
    val_main_v37 (F := Ideal) x0 x1 x2 x3 (ix2 h i) = Cert.Spec.rowMax (sRow x0 x1 x2 x3 h i) := by
  unfold val_main_v37
  refine (Host.reduce_eq_fold_single FloatOps.maximumf _ _ reducesTo_S16x2048x2048_S16x2048_d2 reduces_d2 h_S_ (ix2 h i)).trans ?_
  have hf : (val_main_v36 (F := Ideal) x0 x1 x2 x3 ∘ reduces_d2.lift (ix2 h i)) = sRow x0 x1 x2 x3 h i :=
    funext fun k => (congrArg (val_main_v36 (F := Ideal) x0 x1 x2 x3) (lift_d2 h i k)).trans (v36_at x0 x1 x2 x3 h i k)
  exact congrArg (fun f => Finset.fold max Cert.Spec.cNegInf f (Finset.univ : Finset (Fin 2048))) hf

/-- The maximum of -∞ and a fold of max that starts from -∞ is the fold. -/
theorem v39_at (h : Fin 16) (i : Fin 2048) :
    val_main_v39 (F := Ideal) x0 x1 x2 x3 (ix2 h i) = Cert.Spec.rowMax (sRow x0 x1 x2 x3 h i) := by
  rw [val_main_v39_apply, v37_at, val_main_v38_apply, val_main_cst_6_apply]
  unfold Cert.Spec.rowMax
  show max Cert.Spec.cNegInf _ = _
  exact max_eq_right ((Finset.le_fold_max _).2 (Or.inl le_rfl))

/-! ## Softmax and the head outputs (stages 40 to 48) -/

/-- The exponential of a score shifted by its row's maximum. -/
theorem v43_at (h : Fin 16) (i j : Fin 2048) :
    val_main_v43 (F := Ideal) x0 x1 x2 x3 (ix3 h i j) = Cert.Spec.expRow (sRow x0 x1 x2 x3 h i) j := by
  rw [val_main_v43_apply, val_main_v42_apply, v36_at, val_main_v41_apply, val_main_v40_apply,
    show idx_main_v40 (idx_main_v41 (ix3 h i j)) = ix2 h i from by idx2, v39_at]
  rfl

/-- The row's sum of exponentials. -/
theorem v44_at (h : Fin 16) (i : Fin 2048) :
    val_main_v44 (F := Ideal) x0 x1 x2 x3 (ix2 h i) = ∑ j : Fin 2048, Cert.Spec.expRow (sRow x0 x1 x2 x3 h i) j := by
  rw [val_main_v44_apply, val_main_cst_7_apply]
  simp only [Ideal.ofBits_def, Ideal.ofBits_zero_f32, zero_add]
  refine Finset.sum_congr rfl fun j _ => ?_
  rw [show idx_main_v44 (ix2 h i) j = ix3 h i j from by idx3, v43_at]

/-- The softmax weight. -/
theorem v47_at (h : Fin 16) (i j : Fin 2048) :
    val_main_v47 (F := Ideal) x0 x1 x2 x3 (ix3 h i j) = Cert.Spec.softRow (sRow x0 x1 x2 x3 h i) j := by
  rw [val_main_v47_apply, v43_at, val_main_v46_apply, val_main_v45_apply,
    show idx_main_v45 (idx_main_v46 (ix3 h i j)) = ix2 h i from by idx2, v44_at]
  rfl

/-- Head h's output for query row i at coordinate d. -/
theorem v48_at (h : Fin 16) (i : Fin 2048) (d : Fin 64) :
    val_main_v48 (F := Ideal) x0 x1 x2 x3 (ix3 h i d)
      = Cert.Spec.headOut (qRow x0 x1 x2 x3 h i) (kMat x0 x1 x2 x3 h) (vMat x0 x1 x2 x3 h) d := by
  rw [val_main_v48_apply]
  unfold Cert.Spec.headOut
  refine Finset.sum_congr rfl fun j _ => ?_
  rw [show lidx_main_v48 (ix3 h i d) j = ix3 h i j from by idx3, show ridx_main_v48 (ix3 h i d) j = ix3 h j d from by idx3,
    v47_at, v33_at]

/-! ## Heads side by side, and the out-projection (stages 49 to 54)

The reshape [2048, 16, 64] → [2048, 1024] reads entry (r, e) at (r, e / 64, e % 64): the row-major position is
1024 r + e. -/

/-- The reshape's source index at (r, e). -/
theorem unreshape_idx (r : Fin 2048) (e : Fin 1024) :
    idx_main_v50 (ix2 r e) = ix3 r (Cert.Spec.headOf e) (Cert.Spec.dimOf e) := by
  funext a
  match a with
  | ⟨0, _⟩ => exact Fin.ext (by show (r.val * 1024 + e.val) / 1024 = r.val; have := e.isLt; omega)
  | ⟨1, _⟩ => exact Fin.ext (by show (r.val * 1024 + e.val) / 64 % 16 = e.val / 64; have := e.isLt; omega)
  | ⟨2, _⟩ => exact Fin.ext (by show (r.val * 1024 + e.val) % 64 = e.val % 64; omega)

/-- Stage 50 at (r, e) is the concatenated head outputs. -/
theorem v50_at (r : Fin 2048) (e : Fin 1024) :
    val_main_v50 (F := Ideal) x0 x1 x2 x3 (ix2 r e) = Cert.Spec.attn (proj x0 x1 x2 x3) r e := by
  rw [val_main_v50_apply, unreshape_idx, val_main_v49_apply,
    show idx_main_v49 (ix3 r (Cert.Spec.headOf e) (Cert.Spec.dimOf e)) = ix3 (Cert.Spec.headOf e) r (Cert.Spec.dimOf e) from by idx3,
    v48_at]
  rfl

/-- The last stage at (r, c). -/
theorem v54_at (r : Fin 2048) (c : Fin 1024) :
    val_main_v54 (F := Ideal) x0 x1 x2 x3 x4 x5 (ix2 r c)
      = Cert.Spec.outProj (Cert.Spec.attn (proj x0 x1 x2 x3) r) (fun e c => x4 (ix2 e c)) (fun c => x5 (ix1 c)) c := by
  rw [val_main_v54_apply, val_main_v51_apply, val_main_v53_apply, val_main_v52_apply,
    show idx_main_v52 (idx_main_v53 (ix2 r c)) = ix1 c from by funext a; match a with | ⟨0, _⟩ => rfl]
  unfold Cert.Spec.outProj
  show (∑ e : Fin 1024, _) + _ = (∑ e : Fin 1024, _) + _
  refine congrArg (· + x5 (ix1 c)) (Finset.sum_congr rfl fun e _ => ?_)
  rw [show lidx_main_v51 (ix2 r c) e = ix2 r e from by idx2, show ridx_main_v51 (ix2 r c) e = ix2 e c from by idx2, v50_at]

end Stages

/-- Entry (r, c) of the reference's result is the specified function of the six arguments. -/
theorem ref_result (x0 : (⟨S2048x1024, .f32⟩ : BufTy).Contents (Elt Ideal)) (x1 x2 : (⟨S1024, .f32⟩ : BufTy).Contents (Elt Ideal))
    (x3 : (⟨S1024x3072, .f32⟩ : BufTy).Contents (Elt Ideal)) (x4 : (⟨S1024x1024, .f32⟩ : BufTy).Contents (Elt Ideal))
    (x5 : (⟨S1024, .f32⟩ : BufTy).Contents (Elt Ideal)) (r : Fin 2048) (c : Fin 1024) :
    val_main_v54 (F := Ideal) x0 x1 x2 x3 x4 x5 (ix2 r c)
      = Cert.Spec.result (fun r k => x0 (ix2 r k)) (fun k => x1 (ix1 k)) (fun k => x2 (ix1 k)) (fun k j => x3 (ix2 k j))
          (fun e c => x4 (ix2 e c)) (fun c => x5 (ix1 c)) r c := by
  exact v54_at x0 x1 x2 x3 x4 x5 r c

end Cert.ReferenceIdeal.RefValue

end
-- ==== Proof.RefRead.lean ====
/-
  The reference program read one operation at a time: its run, and each host operation's value at an index.
-/
import proofs.«421590_j85392539779833_3_alg».proof.Proof.Gen.ReferenceIdeal.Run
import proofs.«421590_j85392539779833_3_alg».proof.Proof.Gen.ReferenceIdeal.Read
-- ==== Proof.lean ====
/-
  Layer norm, a packed q | k | v projection, sixteen heads of softmax attention and an out-projection, as two kernel
  regions against the plain host computation. Over the extended reals both programs end holding one function of the six
  argument arrays (proof/Proof/Spec.lean): the idealized kernel because its first region leaves the packed projection of
  the normalised rows and its second the out-projection of the heads' attention over it, head pair by head pair, lane
  for lane; the reference because its sixty-four host operations, read one at a time, are that function's stages. No law
  of arithmetic beyond the definitions is used: the two sides differ in layout and in the order of their sums, which the
  exact sums do not see, and narrowing a float is the identity there. Each program runs to the end from any memory,
  faults nowhere and leaves its arguments as they were; the idealization rewrote nothing.
-/
import proofs.«421590_j85392539779833_3_alg».proof.Defs
import proofs.«421590_j85392539779833_3_alg».proof.Proof.K.Run
import proofs.«421590_j85392539779833_3_alg».proof.Proof.KI.Final
import proofs.«421590_j85392539779833_3_alg».proof.Proof.RefValue
import proofs.«421590_j85392539779833_3_alg».proof.Proof.RefRead
import proofs.«421590_j85392539779833_3_alg».proof.Proof.Gen.Pre_finite_inputs

set_option maxRecDepth 16384

noncomputable section

namespace Cert.Proof

open Idealize.ShloMosaic Idealize.ShloMosaic.TcCoe Idealize.SL.Sem Idealize.ShloMosaic.ValueIdx

/-- The word-level kernel runs to the end and leaves its arguments: its run with the result dropped. -/
theorem frame_k : Cert.frame_Kernel := fun m ρ _ =>
  (θ_run Cert.Kernel.defs _ _).mono (fun _ h c => (h c).2) (Cert.Kernel.Hand.run_main (F := Bits) m ρ)

/-- The idealized kernel likewise. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the specified function of them in their result
    buffers, entry by entry. -/
theorem algebraic : Cert.algebraic_KernelIdeal_ReferenceIdeal := by
  intro m ρ m' ρ' _ hagree
  refine ⟨fun c => Cert.KernelIdeal.Hand.resArr (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2]
  funext i
  obtain ⟨r, e, rfl⟩ : ∃ (r : Fin 2048) (e : Fin 1024), i = ix2 r e := ⟨i 0, i 1, eq_ix2 i⟩
  rw [Cert.ReferenceIdeal.RefValue.ref_result]
  exact (Cert.KernelIdeal.Hand.res_value m c r e).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
